-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x4096 .f32) (main_arg1 : FVec F S8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x4096 : Shape := ⟨2, ![8192, 4096]⟩
abbrev S8192 : Shape := ⟨1, ![8192]⟩
abbrev S16x128 : Shape := ⟨2, ![16, 128]⟩
abbrev S512x4096 : Shape := ⟨2, ![512, 4096]⟩
abbrev S8x128 : Shape := ⟨2, ![8, 128]⟩
abbrev S1x1 : Shape := ⟨2, ![1, 1]⟩
abbrev S512 : Shape := ⟨1, ![512]⟩
abbrev S512x1 : Shape := ⟨2, ![512, 1]⟩
abbrev S1 : Shape := ⟨1, ![1]⟩
abbrev S_ : Shape := ⟨0, ![]⟩
abbrev S8192x1 : Shape := ⟨2, ![8192, 1]⟩
abbrev S4 : Shape := ⟨1, ![4]⟩
abbrev S1x4 : Shape := ⟨2, ![1, 4]⟩
abbrev S8192x4 : Shape := ⟨2, ![8192, 4]⟩
abbrev S8192x4x1 : Shape := ⟨3, ![8192, 4, 1]⟩
abbrev S1x1x1 : Shape := ⟨3, ![1, 1, 1]⟩

abbrev nBuf : Space → Nat
  | .hbm => 102
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S8192, .f32⟩
  | .hbm, ⟨2, _⟩ => ⟨S16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .i32⟩
  | .hbm, ⟨10, _⟩ => ⟨S8192, .f32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S4, .i32⟩
  | .hbm, ⟨25, _⟩ => ⟨S1x4, .i32⟩
  | .hbm, ⟨26, _⟩ => ⟨S8192x4, .i32⟩
  | .hbm, ⟨27, _⟩ => ⟨S8192x4, .i32⟩
  | .hbm, ⟨28, _⟩ => ⟨S8192x4, .i32⟩
  | .hbm, ⟨29, _⟩ => ⟨S_, .i32⟩
  | .hbm, ⟨30, _⟩ => ⟨S8192x4, .i32⟩
  | .hbm, ⟨31, _⟩ => ⟨S8192x4, .i1⟩
  | .hbm, ⟨32, _⟩ => ⟨S_, .i32⟩
  | .hbm, ⟨33, _⟩ => ⟨S8192x4, .i32⟩
  | .hbm, ⟨34, _⟩ => ⟨S8192x4, .i32⟩
  | .hbm, ⟨35, _⟩ => ⟨S8192x4, .i32⟩
  | .hbm, ⟨36, _⟩ => ⟨S8192x4x1, .i32⟩
  | .hbm, ⟨37, _⟩ => ⟨S1, .i32⟩
  | .hbm, ⟨38, _⟩ => ⟨S_, .i32⟩
  | .hbm, ⟨39, _⟩ => ⟨S8192x4x1, .i32⟩
  | .hbm, ⟨40, _⟩ => ⟨S8192x4x1, .i1⟩
  | .hbm, ⟨41, _⟩ => ⟨S1x1x1, .i32⟩
  | .hbm, ⟨42, _⟩ => ⟨S8192x4x1, .i32⟩
  | .hbm, ⟨43, _⟩ => ⟨S8192x4x1, .i1⟩
  | .hbm, ⟨44, _⟩ => ⟨S8192x4x1, .i1⟩
  | .hbm, ⟨45, _⟩ => ⟨S_, .i1⟩
  | .hbm, ⟨46, _⟩ => ⟨S8192x4, .i1⟩
  | .hbm, ⟨47, _⟩ => ⟨S8192x4, .f32⟩
  | .hbm, ⟨48, _⟩ => ⟨S_, .f32⟩
  | .hbm, ⟨49, _⟩ => ⟨S8192x4, .f32⟩
  | .hbm, ⟨50, _⟩ => ⟨S8192x4, .f32⟩
  | .hbm, ⟨51, _⟩ => ⟨S8192x1, .i32⟩
  | .hbm, ⟨52, _⟩ => ⟨S8192x4, .i32⟩
  | .hbm, ⟨53, _⟩ => ⟨S8192x4, .i1⟩
  | .hbm, ⟨54, _⟩ => ⟨S8192x1, .i32⟩
  | .hbm, ⟨55, _⟩ => ⟨S8192x4, .i32⟩
  | .hbm, ⟨56, _⟩ => ⟨S8192x4, .i1⟩
  | .hbm, ⟨57, _⟩ => ⟨S8192x4, .i1⟩
  | .hbm, ⟨58, _⟩ => ⟨S8192x1, .i32⟩
  | .hbm, ⟨59, _⟩ => ⟨S_, .i32⟩
  | .hbm, ⟨60, _⟩ => ⟨S8192x1, .i32⟩
  | .hbm, ⟨61, _⟩ => ⟨S8192x1, .i32⟩
  | .hbm, ⟨62, _⟩ => ⟨S8192x4, .i32⟩
  | .hbm, ⟨63, _⟩ => ⟨S8192x4, .i1⟩
  | .hbm, ⟨64, _⟩ => ⟨S8192x1, .i32⟩
  | .hbm, ⟨65, _⟩ => ⟨S_, .i32⟩
  | .hbm, ⟨66, _⟩ => ⟨S8192x1, .i32⟩
  | .hbm, ⟨67, _⟩ => ⟨S8192x1, .i1⟩
  | .hbm, ⟨68, _⟩ => ⟨S8192x4, .i1⟩
  | .hbm, ⟨69, _⟩ => ⟨S8192x4, .i1⟩
  | .hbm, ⟨70, _⟩ => ⟨S8192x1, .i32⟩
  | .hbm, ⟨71, _⟩ => ⟨S_, .i32⟩
  | .hbm, ⟨72, _⟩ => ⟨S8192x1, .i32⟩
  | .hbm, ⟨73, _⟩ => ⟨S8192x1, .i32⟩
  | .hbm, ⟨74, _⟩ => ⟨S8192x4, .i32⟩
  | .hbm, ⟨75, _⟩ => ⟨S8192x4, .i1⟩
  | .hbm, ⟨76, _⟩ => ⟨S8192x1, .i32⟩
  | .hbm, ⟨77, _⟩ => ⟨S_, .i32⟩
  | .hbm, ⟨78, _⟩ => ⟨S8192x1, .i32⟩
  | .hbm, ⟨79, _⟩ => ⟨S8192x1, .i1⟩
  | .hbm, ⟨80, _⟩ => ⟨S8192x4, .i1⟩
  | .hbm, ⟨81, _⟩ => ⟨S8192x4, .i1⟩
  | .hbm, ⟨82, _⟩ => ⟨S8192x4, .i1⟩
  | .hbm, ⟨83, _⟩ => ⟨S_, .f32⟩
  | .hbm, ⟨84, _⟩ => ⟨S_, .f32⟩
  | .hbm, ⟨85, _⟩ => ⟨S8192x4, .f32⟩
  | .hbm, ⟨86, _⟩ => ⟨S8192x4, .f32⟩
  | .hbm, ⟨87, _⟩ => ⟨S8192x4, .f32⟩
  | .hbm, ⟨88, _⟩ => ⟨S_, .f32⟩
  | .hbm, ⟨89, _⟩ => ⟨S8192x4, .f32⟩
  | .hbm, ⟨90, _⟩ => ⟨S8192x4, .f32⟩
  | .hbm, ⟨91, _⟩ => ⟨S8192x4, .f32⟩
  | .hbm, ⟨92, _⟩ => ⟨S8192x4, .f32⟩
  | .hbm, ⟨93, _⟩ => ⟨S_, .f32⟩
  | .hbm, ⟨94, _⟩ => ⟨S_, .f32⟩
  | .hbm, ⟨95, _⟩ => ⟨S8192x4, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S8x128, .f32⟩
  | .local _ .vmem, ⟨3, _⟩ => ⟨S8x128, .f32⟩
  | .local _ .vmem, ⟨4, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_3 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_5 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_6 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_7 : Ref sig .tc := ⟨.hbm, 83, rfl⟩
abbrev main_cst_8 : Ref sig .tc := ⟨.hbm, 84, rfl⟩
abbrev main_call2_v0 : Ref sig .tc := ⟨.hbm, 85, rfl⟩
abbrev main_call2_v1 : Ref sig .tc := ⟨.hbm, 86, rfl⟩
abbrev main_v46 : Ref sig .tc := ⟨.hbm, 87, rfl⟩
abbrev main_cst_9 : Ref sig .tc := ⟨.hbm, 88, rfl⟩
abbrev main_call3_v0 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_10 : Ref sig .tc := ⟨.hbm, 93, rfl⟩
abbrev main_v50 : Ref sig .tc := ⟨.hbm, 94, rfl⟩
abbrev main_v51 : Ref sig .tc := ⟨.hbm, 95, rfl⟩
abbrev main_cst_11 : Ref sig .tc := ⟨.hbm, 96, rfl⟩
abbrev main_v52 : Ref sig .tc := ⟨.hbm, 97, rfl⟩
abbrev main_cst_12 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S4_S1x4_1 : S4.BroadcastsInDim S1x4 (![1] : Fin 1 → Fin S1x4.rank)
  bcast_S8192x1_S8192x4_0_1 : S8192x1.BroadcastsInDim S8192x4 (![0, 1] : Fin 2 → Fin S8192x4.rank)
  bcast_S1x4_S8192x4_0_1 : S1x4.BroadcastsInDim S8192x4 (![0, 1] : Fin 2 → Fin S8192x4.rank)
  bcast_S_S8192x4 : S_.BroadcastsInDim S8192x4 (![] : Fin 0 → Fin S8192x4.rank)
  shapeCasts_S8192x4_S8192x4x1 : S8192x4.ShapeCasts S8192x4x1
  bcast_S_S8192x4x1 : S_.BroadcastsInDim S8192x4x1 (![] : Fin 0 → Fin S8192x4x1.rank)
  bcast_S1_S1x1x1_2 : S1.BroadcastsInDim S1x1x1 (![2] : Fin 1 → Fin S1x1x1.rank)
  bcast_S1x1x1_S8192x4x1_0_1_2 : S1x1x1.BroadcastsInDim S8192x4x1 (![0, 1, 2] : Fin 3 → Fin S8192x4x1.rank)
  reducesTo_S8192x4x1_S8192x4_d2 : S8192x4x1.ReducesTo [2] S8192x4
  bcast_S_S8192x1 : S_.BroadcastsInDim S8192x1 (![] : Fin 0 → Fin S8192x1.rank)
  reducesTo_S8192x4_S_d0_1 : S8192x4.ReducesTo [0, 1] S_
  gather_S8192x4096_S8192x4x1_S8192x4_n_1_0_0_1_2_11_wf : GatherDims.WF S8192x4096 S8192x4x1 S8192x4 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)

variable [Facts₀]

def gather_S8192x4096_S8192x4x1_S8192x4_n_1_0_0_1_2_11 : GatherDims S8192x4096 S8192x4x1 S8192x4 where
  offsetDims := []
  collapsedSliceDims := [1]
  operandBatchingDims := [0]
  startIndicesBatchingDims := [0]
  startIndexMap := [1]
  indexVectorDim := 2
  sliceSizes := ![1, 1]
  wf := gather_S8192x4096_S8192x4x1_S8192x4_n_1_0_0_1_2_11_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S_ : Shape := ⟨0, ![]⟩
abbrev S8192x1 : Shape := ⟨2, ![8192, 1]⟩
abbrev S4096 : Shape := ⟨1, ![4096]⟩
abbrev S1x4096 : Shape := ⟨2, ![1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192, .i32⟩
  | .hbm, ⟨7, _⟩ => ⟨S8192x1, .i32⟩
  | .hbm, ⟨8, _⟩ => ⟨S8192, .f32⟩
  | .hbm, ⟨9, _⟩ => ⟨S8192, .i32⟩
  | .hbm, ⟨10, _⟩ => ⟨S8192x1, .i32⟩
  | .hbm, ⟨11, _⟩ => ⟨S4096, .i32⟩
  | .hbm, ⟨12, _⟩ => ⟨S1x4096, .i32⟩
  | .hbm, ⟨13, _⟩ => ⟨S8192x4096, .i32⟩
  | .hbm, ⟨14, _⟩ => ⟨S8192x4096, .i32⟩
  | .hbm, ⟨15, _⟩ => ⟨S8192x4096, .i1⟩
  | .hbm, ⟨16, _⟩ => ⟨S8192x4096, .i32⟩
  | .hbm, ⟨17, _⟩ => ⟨S8192x4096, .i32⟩
  | .hbm, ⟨18, _⟩ => ⟨S8192x4096, .i1⟩
  | .hbm, ⟨19, _⟩ => ⟨S8192x4096, .i1⟩
  | .hbm, ⟨20, _⟩ => ⟨S_, .i32⟩
  | .hbm, ⟨21, _⟩ => ⟨S8192x1, .i32⟩
  | .hbm, ⟨22, _⟩ => ⟨S8192x1, .i32⟩
  | .hbm, ⟨23, _⟩ => ⟨S8192x4096, .i32⟩
  | .hbm, ⟨24, _⟩ => ⟨S8192x4096, .i32⟩
  | .hbm, ⟨25, _⟩ => ⟨S8192x4096, .i1⟩
  | .hbm, ⟨26, _⟩ => ⟨S_, .i32⟩
  | .hbm, ⟨27, _⟩ => ⟨S8192x1, .i32⟩
  | .hbm, ⟨28, _⟩ => ⟨S8192x1, .i1⟩
  | .hbm, ⟨29, _⟩ => ⟨S8192x4096, .i1⟩
  | .hbm, ⟨30, _⟩ => ⟨S8192x4096, .i1⟩
  | .hbm, ⟨31, _⟩ => ⟨S_, .i32⟩
  | .hbm, ⟨32, _⟩ => ⟨S8192x1, .i32⟩
  | .hbm, ⟨33, _⟩ => ⟨S8192x1, .i32⟩
  | .hbm, ⟨34, _⟩ => ⟨S8192x4096, .i32⟩
  | .hbm, ⟨35, _⟩ => ⟨S8192x4096, .i32⟩
  | .hbm, ⟨36, _⟩ => ⟨S8192x4096, .i1⟩
  | .hbm, ⟨37, _⟩ => ⟨S_, .i32⟩
  | .hbm, ⟨38, _⟩ => ⟨S8192x1, .i32⟩
  | .hbm, ⟨39, _⟩ => ⟨S8192x1, .i1⟩
  | .hbm, ⟨40, _⟩ => ⟨S8192x4096, .i1⟩
  | .hbm, ⟨41, _⟩ => ⟨S8192x4096, .i1⟩
  | .hbm, ⟨42, _⟩ => ⟨S8192x4096, .i1⟩
  | .hbm, ⟨43, _⟩ => ⟨S_, .f32⟩
  | .hbm, ⟨44, _⟩ => ⟨S_, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S8192x4096, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_v36 : Ref sig .tc := ⟨.hbm, 47, rfl⟩
abbrev main_cst_5 : Ref sig .tc := ⟨.hbm, 48, rfl⟩
abbrev main_call1_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S8192x1_S8192x4096_0_1 : S8192x1.BroadcastsInDim S8192x4096 (![0, 1] : Fin 2 → Fin S8192x4096.rank)
  bcast_S_S8192x1 : S_.BroadcastsInDim S8192x1 (![] : Fin 0 → Fin S8192x1.rank)
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts₀]

class Facts : Prop extends Facts₀ where

variable [Facts]
-- ==== Proof.KbRuns.lean ====
/-
  What the three control cases of the kernel body share: the program around its one pallas_call (the region first,
  then nine stretches of host operations), the host operations' footprint (they allocate nothing, touch only
  unscoped buffers and write neither of the pipeline's two arrays), the input blocks, the two branch conditions in
  closed form over the 16 grid points (the scratch accumulator is reset where the inner coordinate is 0, the output
  block is stored where it is 7), and where the output window is idle.
-/
import proofs.«409343_j87729001988727_3_alg».proof.Proof.Gen.Kernel.Launch
import proofs.«409343_j87729001988727_3_alg».proof.Proof.Gen.Kernel.Skeleton
import proofs.«409343_j87729001988727_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core c's buffer contents when the region is entered: the launch contents (no host operation precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The nine stretches of host operations after the region, in order. -/
abbrev tailOps : List (List (HloOp τ sig (Elt F))) :=
  [hostOps1, hostOps1_1, hostOps1_2, hostOps1_3, hostOps1_4, hostOps1_5, hostOps1_6, hostOps1_7, hostOps1_8]

theorem hostOps1_fresh : (hostOps1 : List (HloOp τ sig (Elt F))).Forall fun op => op.fresh = ∅ := by
  simp only [List.Forall]; repeat' constructor
theorem hostOps1_keeps : (hostOps1 : List (HloOp τ sig (Elt F))).Forall fun op => ∀ w, Proc.devRef .tc (Pipeline.arrRef spec0 w) ∉ op.writes := by
  simp only [List.Forall]
  refine ⟨?_, ?_, ?_, ?_, ?_, ?_, ?_, ?_, ?_, ?_, ?_, ?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => ∀ w, Proc.devRef .tc (Pipeline.arrRef spec0 w) ∉ op.writes := by
  simp only [List.Forall]
  refine ⟨?_, ?_, ?_, ?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => ∀ w, Proc.devRef .tc (Pipeline.arrRef spec0 w) ∉ op.writes := by
  simp only [List.Forall]
  refine ⟨?_, ?_, ?_, ?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => ∀ w, Proc.devRef .tc (Pipeline.arrRef spec0 w) ∉ op.writes := by
  simp only [List.Forall]
  refine ⟨?_, ?_, ?_, ?_, ?_, ?_, ?_, ?_, ?_, ?_, ?_, ?_, ?_, ?_, ?_, ?_, ?_, ?_, ?_, ?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op => ∀ w, Proc.devRef .tc (Pipeline.arrRef spec0 w) ∉ op.writes := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op => ∀ w, Proc.devRef .tc (Pipeline.arrRef spec0 w) ∉ op.writes := by
  simp only [List.Forall]
  refine ⟨?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op => ∀ w, Proc.devRef .tc (Pipeline.arrRef spec0 w) ∉ op.writes := by
  simp only [List.Forall]
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op => ∀ w, Proc.devRef .tc (Pipeline.arrRef spec0 w) ∉ op.writes := by
  simp only [List.Forall]
  refine ⟨?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op => ∀ w, Proc.devRef .tc (Pipeline.arrRef spec0 w) ∉ op.writes := by
  simp only [List.Forall]
  refine ⟨?_, ?_, ?_, ?_, ?_, ?_, ?_, ?_, ?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))

/-- The program is the region continued by the nine stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [] tailOps (by simp only [List.Forall])
    (by simp only [List.Forall]) main_chain

/-- The host operations touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- And write neither array of the pipeline: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The input window's blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions over the grid -/

/-- The reset of the accumulator: the inner grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The store of the output block: the inner grid coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S8x128 .f32 := (Memref.whole cc0_stg1_0 : Memref sig .tc .vmem S8x128 .f32).view
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
/-- The scratch accumulator, a whole scoped buffer of the kernel's own. -/
abbrev scM0_0 : Memref sig .tc .vmem S1x1 .f32 := Memref.whole cc0_scratch0
abbrev VS0_0 : View sig .tc .vmem S1x1 .f32 := scM0_0.view

/-- The region's invariant with the scratch accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frm

end
-- ==== Proof.KbRunA.lean ====
/-
  The kernel body where the inner grid coordinate is 0 (the accumulator is reset, the output block is not stored):
  run on whole memrefs — the input block at its contents, the output's staging buffer handed back untouched, the
  scratch at anything — it ends holding the input as it was and the scratch with its stores written (first the zero,
  then zero plus the block's sum of squares), as a list of pieces the run finds.
-/
import proofs.«409343_j87729001988727_3_alg».proof.Proof.KbRuns

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : cond0_0 i) (hc1 : ¬cond0_1 i)
    (x0 : Vec F S512x4096 .f32) :
    Σ' (L1 : List (View.Piece (Elt F) S8x128 .f32)), { LS0 : List (View.Piece (Elt F) S1x1 .f32) //
      ∀ (xi1 : Vec F S8x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Frm

end
-- ==== Proof.KbRunB.lean ====
/-
  The kernel body where the inner grid coordinate is neither 0 nor 7 (no reset, no output store): the scratch,
  at what the point before left in it, ends with that plus the block's sum of squares written.
-/
import proofs.«409343_j87729001988727_3_alg».proof.Proof.KbRunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : ¬cond0_1 i)
    (x0 : Vec F S512x4096 .f32) (xs0 : Vec F S1x1 .f32) :
    Σ' (L1 : List (View.Piece (Elt F) S8x128 .f32)), { LS0 : List (View.Piece (Elt F) S1x1 .f32) //
      ∀ (xi1 : Vec F S8x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Frm

end
-- ==== Proof.KbRunC.lean ====
/-
  The kernel body where the inner grid coordinate is 7 (no reset; the output block is stored): the scratch ends with
  the carried value plus the block's sum of squares written, and the output's staging buffer with the block that
  holds that total at its first entry and zero elsewhere.
-/
import proofs.«409343_j87729001988727_3_alg».proof.Proof.KbRunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : cond0_1 i)
    (x0 : Vec F S512x4096 .f32) (xs0 : Vec F S1x1 .f32) :
    Σ' (L1 : List (View.Piece (Elt F) S8x128 .f32)), { LS0 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨?_, ?_, fun E K => ?run⟩
  case run =>
    simp only [cc0__sumsq_kernel_eq_skeleton]; unfold cc0__sumsq_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Frm

end
-- ==== Proof.KbFrame.lean ====
/-
  The frame of the kernel's program. Per control case, what the body leaves in the output's staging buffer and in
  the scratch accumulator (its stores read back); point by point, what they hold (the accumulator is reset at the
  points 0 and 8, added to at every point, and the output block is stored at the points 7 and 15, each TensorCore's
  last); the region's invariant (the accumulator at what the point before left); the proof data; the body obligation;
  and the run of the whole program: the region, then the host operations that follow it.
-/
import proofs.«409343_j87729001988727_3_alg».proof.Proof.KbRunC

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

def out0_A_1 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : cond0_0 i) (hc1 : ¬cond0_1 i)
    (x0 : Vec F S512x4096 .f32) : Vec F S8x128 .f32 :=
  VO0_1.read (Elt F) (VO0_1.writes (Elt F) VO0_1.junk (kernelRun0_A c i arg2 harg2 arg3 harg3 arg4 harg4 hc0 hc1 x0).1)

theorem scover0_A_0 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : cond0_0 i) (hc1 : ¬cond0_1 i)
    (x0 : Vec F S512x4096 .f32) (y : S1x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x1.size (by sl_kernel_rfl) y

def sout0_A_0 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : cond0_0 i) (hc1 : ¬cond0_1 i)
    (x0 : Vec F S512x4096 .f32) : Vec F S1x1 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : ¬cond0_1 i)
    (x0 : Vec F S512x4096 .f32) (xs0 : Vec F S1x1 .f32) : Vec F S8x128 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : ¬cond0_1 i)
    (x0 : Vec F S512x4096 .f32) (xs0 : Vec F S1x1 .f32) (y : S1x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x1.size (by sl_kernel_rfl) y

def sout0_B_0 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : ¬cond0_1 i)
    (x0 : Vec F S512x4096 .f32) (xs0 : Vec F S1x1 .f32) : Vec F S1x1 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : cond0_1 i)
    (x0 : Vec F S512x4096 .f32) (xs0 : Vec F S1x1 .f32) (y : S8x128.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S8x128.size (by sl_kernel_rfl) y

def out0_C_1 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : cond0_1 i)
    (x0 : Vec F S512x4096 .f32) (xs0 : Vec F S1x1 .f32) : Vec F S8x128 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : cond0_1 i)
    (x0 : Vec F S512x4096 .f32) (xs0 : Vec F S1x1 .f32) (y : S1x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x1.size (by sl_kernel_rfl) y

def sout0_C_0 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : cond0_1 i)
    (x0 : Vec F S512x4096 .f32) (xs0 : Vec F S1x1 .f32) : Vec F S1x1 .f32 :=
  VS0_0.read (Elt F) (VS0_0.writes (Elt F) VS0_0.junk (kernelRun0_C c i arg2 harg2 arg3 harg3 arg4 harg4 hc0 hc1 x0 xs0).2.1)

/-! ## What the output's staging buffer and the accumulator hold after each point -/

/-- After the body at position n: the output's staging buffer and the accumulator, by the case the position is in
    (n ≡ 0 mod 8: reset; n ≡ 7 mod 8: output stored; else accumulate only), the accumulator read from the position before. -/
def outsAt0 (c : Dev nD) : (n : ℕ) → n < cfg0.N → Vec F S8x128 .f32 × Vec F S1x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 8 = 0 then
      if h1 : (n + 1) % 8 = 7 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point every scratch at anything; afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the closed forms say which case the point is in; that case's run applies, handed the
    accumulator at what the point before left (at anything at the first point) and handing it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1_C t (fun h => h0 ((hcond0_0 t).mp h)) ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run -/

set_option backward.isDefEq.respectTransparency.types false in
/-- Every weakly fair execution of the program terminates; at the end each array of the pipeline holds what the
    proof data say and every other unscoped buffer what the host operations after the region leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.Kernel.Frm

end
-- ==== Proof.KbArgs.lean ====
/-
  The program leaves both argument arrays as it found them: the input array is the input window's array, which the
  pipeline only reads, and the label vector bypasses the region and is written by none of the host operations after
  it. With the run of the whole program this is the frame: every weakly fair execution terminates without a fault
  and ends with both arguments unchanged.
-/
import proofs.«409343_j87729001988727_3_alg».proof.Proof.KbFrame

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps1_keeps_lab : (hostOps1 : List (HloOp τ sig (Elt F))).Forall fun op => Proc.devRef .tc main_arg1 ∉ op.writes := by
  simp only [List.Forall]
  refine ⟨?_, ?_, ?_, ?_, ?_, ?_, ?_, ?_, ?_, ?_, ?_, ?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_1_keeps_lab : (hostOps1_1 : List (HloOp τ sig (Elt F))).Forall fun op => Proc.devRef .tc main_arg1 ∉ op.writes := by
  simp only [List.Forall]
  refine ⟨?_, ?_, ?_, ?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_2_keeps_lab : (hostOps1_2 : List (HloOp τ sig (Elt F))).Forall fun op => Proc.devRef .tc main_arg1 ∉ op.writes := by
  simp only [List.Forall]
  refine ⟨?_, ?_, ?_, ?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_3_keeps_lab : (hostOps1_3 : List (HloOp τ sig (Elt F))).Forall fun op => Proc.devRef .tc main_arg1 ∉ op.writes := by
  simp only [List.Forall]
  refine ⟨?_, ?_, ?_, ?_, ?_, ?_, ?_, ?_, ?_, ?_, ?_, ?_, ?_, ?_, ?_, ?_, ?_, ?_, ?_, ?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_4_keeps_lab : (hostOps1_4 : List (HloOp τ sig (Elt F))).Forall fun op => Proc.devRef .tc main_arg1 ∉ op.writes := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_5_keeps_lab : (hostOps1_5 : List (HloOp τ sig (Elt F))).Forall fun op => Proc.devRef .tc main_arg1 ∉ op.writes := by
  simp only [List.Forall]
  refine ⟨?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_6_keeps_lab : (hostOps1_6 : List (HloOp τ sig (Elt F))).Forall fun op => Proc.devRef .tc main_arg1 ∉ op.writes := by
  simp only [List.Forall]
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_7_keeps_lab : (hostOps1_7 : List (HloOp τ sig (Elt F))).Forall fun op => Proc.devRef .tc main_arg1 ∉ op.writes := by
  simp only [List.Forall]
  refine ⟨?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_8_keeps_lab : (hostOps1_8 : List (HloOp τ sig (Elt F))).Forall fun op => Proc.devRef .tc main_arg1 ∉ op.writes := by
  simp only [List.Forall]
  refine ⟨?_, ?_, ?_, ?_, ?_, ?_, ?_, ?_, ?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))

/-- No host operation after the region writes the label vector. -/
theorem tail_keeps_lab : ∀ op ∈ (List.flatten (tailOps (F := F))), Proc.devRef .tc main_arg1 ∉ op.writes := by
  intro op hop
  obtain ⟨ops, hops, hop'⟩ := List.mem_flatten.mp hop
  simp only [List.mem_cons, List.mem_nil_iff, or_false] at hops
  rcases hops with rfl | rfl | rfl | rfl | rfl | rfl | rfl | rfl | rfl
  · exact (List.forall_iff_forall_mem.mp hostOps1_keeps_lab) op hop'
  · exact (List.forall_iff_forall_mem.mp hostOps1_1_keeps_lab) op hop'
  · exact (List.forall_iff_forall_mem.mp hostOps1_2_keeps_lab) op hop'
  · exact (List.forall_iff_forall_mem.mp hostOps1_3_keeps_lab) op hop'
  · exact (List.forall_iff_forall_mem.mp hostOps1_4_keeps_lab) op hop'
  · exact (List.forall_iff_forall_mem.mp hostOps1_5_keeps_lab) op hop'
  · exact (List.forall_iff_forall_mem.mp hostOps1_6_keeps_lab) op hop'
  · exact (List.forall_iff_forall_mem.mp hostOps1_7_keeps_lab) op hop'
  · exact (List.forall_iff_forall_mem.mp hostOps1_8_keeps_lab) op hop'

/-- So from any buffer contents the host operations leave the label vector as it was. -/
theorem tail_lab (W : Valuation τ sig (Elt F)) :
    StableHlo.after (List.flatten (tailOps (F := F))) W (Proc.devRef .tc main_arg1) = W (Proc.devRef .tc main_arg1) :=
  StableHlo.after_of_forall_not_mem _ W tail_keeps_lab

/-- The label vector and the result are unscoped buffers that are no array of the pipeline. -/
theorem lab_mem_rest : main_arg1 ∈ Pipeline.restRefs sig spec0 :=
  Pipeline.mem_restRefs_of main_arg1 rfl (fun w => by fin_cases w <;> decide)
theorem res_mem_rest : main_v55 ∈ Pipeline.restRefs sig spec0 :=
  Pipeline.mem_restRefs_of main_v55 rfl (fun w => by fin_cases w <;> decide)

/-- What the frame run's post says of the two arguments. -/
theorem args_of_post (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) := by
  refine ⟨((h c).1 0).trans (((dats m 0 c).arrAt_in 0 rfl _).trans ((A_eq m c 0).trans (V_main_arg0 m c))), ?_⟩
  refine ((h c).2 main_arg1 lab_mem_rest).trans ?_
  unfold Pipeline.afterTail₀
  rw [tail_lab, Pipeline.withArrays_of_ne spec0 c _ _ main_arg1 (fun w => by fin_cases w <;> decide)]
  rfl

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => args_of_post m r h c) (run_main m ρ)

end Cert.Kernel.Frm

end
-- ==== Proof.KiRuns.lean ====
/-
  What the three control cases of the kernel body share: the program around its one pallas_call (the region first,
  then nine stretches of host operations), the host operations' footprint (they allocate nothing, touch only
  unscoped buffers and write neither of the pipeline's two arrays), the input blocks, the two branch conditions in
  closed form over the 16 grid points (the scratch accumulator is reset where the inner coordinate is 0, the output
  block is stored where it is 7), and where the output window is idle.
-/
import proofs.«409343_j87729001988727_3_alg».proof.Proof.Gen.KernelIdeal.Launch
import proofs.«409343_j87729001988727_3_alg».proof.Proof.Gen.KernelIdeal.Skeleton
import proofs.«409343_j87729001988727_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core c's buffer contents when the region is entered: the launch contents (no host operation precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The nine stretches of host operations after the region, in order. -/
abbrev tailOps : List (List (HloOp τ sig (Elt F))) :=
  [hostOps1, hostOps1_1, hostOps1_2, hostOps1_3, hostOps1_4, hostOps1_5, hostOps1_6, hostOps1_7, hostOps1_8]

theorem hostOps1_fresh : (hostOps1 : List (HloOp τ sig (Elt F))).Forall fun op => op.fresh = ∅ := by
  simp only [List.Forall]; repeat' constructor
theorem hostOps1_keeps : (hostOps1 : List (HloOp τ sig (Elt F))).Forall fun op => ∀ w, Proc.devRef .tc (Pipeline.arrRef spec0 w) ∉ op.writes := by
  simp only [List.Forall]
  refine ⟨?_, ?_, ?_, ?_, ?_, ?_, ?_, ?_, ?_, ?_, ?_, ?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => ∀ w, Proc.devRef .tc (Pipeline.arrRef spec0 w) ∉ op.writes := by
  simp only [List.Forall]
  refine ⟨?_, ?_, ?_, ?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => ∀ w, Proc.devRef .tc (Pipeline.arrRef spec0 w) ∉ op.writes := by
  simp only [List.Forall]
  refine ⟨?_, ?_, ?_, ?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => ∀ w, Proc.devRef .tc (Pipeline.arrRef spec0 w) ∉ op.writes := by
  simp only [List.Forall]
  refine ⟨?_, ?_, ?_, ?_, ?_, ?_, ?_, ?_, ?_, ?_, ?_, ?_, ?_, ?_, ?_, ?_, ?_, ?_, ?_, ?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op => ∀ w, Proc.devRef .tc (Pipeline.arrRef spec0 w) ∉ op.writes := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op => ∀ w, Proc.devRef .tc (Pipeline.arrRef spec0 w) ∉ op.writes := by
  simp only [List.Forall]
  refine ⟨?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op => ∀ w, Proc.devRef .tc (Pipeline.arrRef spec0 w) ∉ op.writes := by
  simp only [List.Forall]
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op => ∀ w, Proc.devRef .tc (Pipeline.arrRef spec0 w) ∉ op.writes := by
  simp only [List.Forall]
  refine ⟨?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op => ∀ w, Proc.devRef .tc (Pipeline.arrRef spec0 w) ∉ op.writes := by
  simp only [List.Forall]
  refine ⟨?_, ?_, ?_, ?_, ?_, ?_, ?_, ?_, ?_, ?_, ?_⟩ <;>
  (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))

/-- The program is the region continued by the nine stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [] tailOps (by simp only [List.Forall])
    (by simp only [List.Forall]) main_chain

/-- The host operations touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- And write neither array of the pipeline: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The input window's blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions over the grid -/

/-- The reset of the accumulator: the inner grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The store of the output block: the inner grid coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S8x128 .f32 := (Memref.whole cc0_stg1_0 : Memref sig .tc .vmem S8x128 .f32).view
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
/-- The scratch accumulator, a whole scoped buffer of the kernel's own. -/
abbrev scM0_0 : Memref sig .tc .vmem S1x1 .f32 := Memref.whole cc0_scratch0
abbrev VS0_0 : View sig .tc .vmem S1x1 .f32 := scM0_0.view

/-- The region's invariant with the scratch accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frm

end
-- ==== Proof.KiRunA.lean ====
/-
  The kernel body where the inner grid coordinate is 0 (the accumulator is reset, the output block is not stored):
  run on whole memrefs — the input block at its contents, the output's staging buffer handed back untouched, the
  scratch at anything — it ends holding the input as it was and the scratch with its stores written (first the zero,
  then zero plus the block's sum of squares), as a list of pieces the run finds.
-/
import proofs.«409343_j87729001988727_3_alg».proof.Proof.KiRuns

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : cond0_0 i) (hc1 : ¬cond0_1 i)
    (x0 : Vec F S512x4096 .f32) :
    Σ' (L1 : List (View.Piece (Elt F) S8x128 .f32)), { LS0 : List (View.Piece (Elt F) S1x1 .f32) //
      ∀ (xi1 : Vec F S8x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Frm

end
-- ==== Proof.KiRunB.lean ====
/-
  The kernel body where the inner grid coordinate is neither 0 nor 7 (no reset, no output store): the scratch,
  at what the point before left in it, ends with that plus the block's sum of squares written.
-/
import proofs.«409343_j87729001988727_3_alg».proof.Proof.KiRunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : ¬cond0_1 i)
    (x0 : Vec F S512x4096 .f32) (xs0 : Vec F S1x1 .f32) :
    Σ' (L1 : List (View.Piece (Elt F) S8x128 .f32)), { LS0 : List (View.Piece (Elt F) S1x1 .f32) //
      ∀ (xi1 : Vec F S8x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Frm

end
-- ==== Proof.KiRunC.lean ====
/-
  The kernel body where the inner grid coordinate is 7 (no reset; the output block is stored): the scratch ends with
  the carried value plus the block's sum of squares written, and the output's staging buffer with the block that
  holds that total at its first entry and zero elsewhere.
-/
import proofs.«409343_j87729001988727_3_alg».proof.Proof.KiRunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : cond0_1 i)
    (x0 : Vec F S512x4096 .f32) (xs0 : Vec F S1x1 .f32) :
    Σ' (L1 : List (View.Piece (Elt F) S8x128 .f32)), { LS0 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨?_, ?_, fun E K => ?run⟩
  case run =>
    simp only [cc0__sumsq_kernel_eq_skeleton]; unfold cc0__sumsq_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Frm

end
-- ==== Proof.KiFrame.lean ====
/-
  The frame of the kernel's program. Per control case, what the body leaves in the output's staging buffer and in
  the scratch accumulator (its stores read back); point by point, what they hold (the accumulator is reset at the
  points 0 and 8, added to at every point, and the output block is stored at the points 7 and 15, each TensorCore's
  last); the region's invariant (the accumulator at what the point before left); the proof data; the body obligation;
  and the run of the whole program: the region, then the host operations that follow it.
-/
import proofs.«409343_j87729001988727_3_alg».proof.Proof.KiRunC

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

def out0_A_1 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : cond0_0 i) (hc1 : ¬cond0_1 i)
    (x0 : Vec F S512x4096 .f32) : Vec F S8x128 .f32 :=
  VO0_1.read (Elt F) (VO0_1.writes (Elt F) VO0_1.junk (kernelRun0_A c i arg2 harg2 arg3 harg3 arg4 harg4 hc0 hc1 x0).1)

theorem scover0_A_0 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : cond0_0 i) (hc1 : ¬cond0_1 i)
    (x0 : Vec F S512x4096 .f32) (y : S1x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x1.size (by sl_kernel_rfl) y

def sout0_A_0 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : cond0_0 i) (hc1 : ¬cond0_1 i)
    (x0 : Vec F S512x4096 .f32) : Vec F S1x1 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : ¬cond0_1 i)
    (x0 : Vec F S512x4096 .f32) (xs0 : Vec F S1x1 .f32) : Vec F S8x128 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : ¬cond0_1 i)
    (x0 : Vec F S512x4096 .f32) (xs0 : Vec F S1x1 .f32) (y : S1x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x1.size (by sl_kernel_rfl) y

def sout0_B_0 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : ¬cond0_1 i)
    (x0 : Vec F S512x4096 .f32) (xs0 : Vec F S1x1 .f32) : Vec F S1x1 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : cond0_1 i)
    (x0 : Vec F S512x4096 .f32) (xs0 : Vec F S1x1 .f32) (y : S8x128.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S8x128.size (by sl_kernel_rfl) y

def out0_C_1 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : cond0_1 i)
    (x0 : Vec F S512x4096 .f32) (xs0 : Vec F S1x1 .f32) : Vec F S8x128 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : cond0_1 i)
    (x0 : Vec F S512x4096 .f32) (xs0 : Vec F S1x1 .f32) (y : S1x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x1.size (by sl_kernel_rfl) y

def sout0_C_0 (c : Dev nD) (i : grid0.Coords) (arg2 : Memref sig .tc .vmem S512x4096 .f32) (harg2 : arg2.IsWhole) (arg3 : Memref sig .tc .vmem S8x128 .f32) (harg3 : arg3.IsWhole) (arg4 : Memref sig .tc .vmem S1x1 .f32) (harg4 : arg4.IsWhole) (hc0 : ¬cond0_0 i) (hc1 : cond0_1 i)
    (x0 : Vec F S512x4096 .f32) (xs0 : Vec F S1x1 .f32) : Vec F S1x1 .f32 :=
  VS0_0.read (Elt F) (VS0_0.writes (Elt F) VS0_0.junk (kernelRun0_C c i arg2 harg2 arg3 harg3 arg4 harg4 hc0 hc1 x0 xs0).2.1)

/-! ## What the output's staging buffer and the accumulator hold after each point -/

/-- After the body at position n: the output's staging buffer and the accumulator, by the case the position is in
    (n ≡ 0 mod 8: reset; n ≡ 7 mod 8: output stored; else accumulate only), the accumulator read from the position before. -/
def outsAt0 (c : Dev nD) : (n : ℕ) → n < cfg0.N → Vec F S8x128 .f32 × Vec F S1x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 8 = 0 then
      if h1 : (n + 1) % 8 = 7 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point every scratch at anything; afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the closed forms say which case the point is in; that case's run applies, handed the
    accumulator at what the point before left (at anything at the first point) and handing it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1_C t (fun h => h0 ((hcond0_0 t).mp h)) ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run -/

set_option backward.isDefEq.respectTransparency.types false in
/-- Every weakly fair execution of the program terminates; at the end each array of the pipeline holds what the
    proof data say and every other unscoped buffer what the host operations after the region leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.KernelIdeal.Frm

end
-- ==== Proof.KiArgs.lean ====
/-
  The program leaves both argument arrays as it found them: the input array is the input window's array, which the
  pipeline only reads, and the label vector bypasses the region and is written by none of the host operations after
  it. With the run of the whole program this is the frame: every weakly fair execution terminates without a fault
  and ends with both arguments unchanged.
-/
import proofs.«409343_j87729001988727_3_alg».proof.Proof.KiFrame

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps1_keeps_lab : (hostOps1 : List (HloOp τ sig (Elt F))).Forall fun op => Proc.devRef .tc main_arg1 ∉ op.writes := by
  simp only [List.Forall]
  refine ⟨?_, ?_, ?_, ?_, ?_, ?_, ?_, ?_, ?_, ?_, ?_, ?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_1_keeps_lab : (hostOps1_1 : List (HloOp τ sig (Elt F))).Forall fun op => Proc.devRef .tc main_arg1 ∉ op.writes := by
  simp only [List.Forall]
  refine ⟨?_, ?_, ?_, ?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_2_keeps_lab : (hostOps1_2 : List (HloOp τ sig (Elt F))).Forall fun op => Proc.devRef .tc main_arg1 ∉ op.writes := by
  simp only [List.Forall]
  refine ⟨?_, ?_, ?_, ?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_3_keeps_lab : (hostOps1_3 : List (HloOp τ sig (Elt F))).Forall fun op => Proc.devRef .tc main_arg1 ∉ op.writes := by
  simp only [List.Forall]
  refine ⟨?_, ?_, ?_, ?_, ?_, ?_, ?_, ?_, ?_, ?_, ?_, ?_, ?_, ?_, ?_, ?_, ?_, ?_, ?_, ?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_4_keeps_lab : (hostOps1_4 : List (HloOp τ sig (Elt F))).Forall fun op => Proc.devRef .tc main_arg1 ∉ op.writes := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_5_keeps_lab : (hostOps1_5 : List (HloOp τ sig (Elt F))).Forall fun op => Proc.devRef .tc main_arg1 ∉ op.writes := by
  simp only [List.Forall]
  refine ⟨?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_6_keeps_lab : (hostOps1_6 : List (HloOp τ sig (Elt F))).Forall fun op => Proc.devRef .tc main_arg1 ∉ op.writes := by
  simp only [List.Forall]
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_7_keeps_lab : (hostOps1_7 : List (HloOp τ sig (Elt F))).Forall fun op => Proc.devRef .tc main_arg1 ∉ op.writes := by
  simp only [List.Forall]
  refine ⟨?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))
theorem hostOps1_8_keeps_lab : (hostOps1_8 : List (HloOp τ sig (Elt F))).Forall fun op => Proc.devRef .tc main_arg1 ∉ op.writes := by
  simp only [List.Forall]
  refine ⟨?_, ?_, ?_, ?_, ?_, ?_, ?_, ?_, ?_, ?_, ?_⟩ <;>
  (simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton] <;> exact StableHlo.devRef_ne_of_ne (by decide))

/-- No host operation after the region writes the label vector. -/
theorem tail_keeps_lab : ∀ op ∈ (List.flatten (tailOps (F := F))), Proc.devRef .tc main_arg1 ∉ op.writes := by
  intro op hop
  obtain ⟨ops, hops, hop'⟩ := List.mem_flatten.mp hop
  simp only [List.mem_cons, List.mem_nil_iff, or_false] at hops
  rcases hops with rfl | rfl | rfl | rfl | rfl | rfl | rfl | rfl | rfl
  · exact (List.forall_iff_forall_mem.mp hostOps1_keeps_lab) op hop'
  · exact (List.forall_iff_forall_mem.mp hostOps1_1_keeps_lab) op hop'
  · exact (List.forall_iff_forall_mem.mp hostOps1_2_keeps_lab) op hop'
  · exact (List.forall_iff_forall_mem.mp hostOps1_3_keeps_lab) op hop'
  · exact (List.forall_iff_forall_mem.mp hostOps1_4_keeps_lab) op hop'
  · exact (List.forall_iff_forall_mem.mp hostOps1_5_keeps_lab) op hop'
  · exact (List.forall_iff_forall_mem.mp hostOps1_6_keeps_lab) op hop'
  · exact (List.forall_iff_forall_mem.mp hostOps1_7_keeps_lab) op hop'
  · exact (List.forall_iff_forall_mem.mp hostOps1_8_keeps_lab) op hop'

/-- So from any buffer contents the host operations leave the label vector as it was. -/
theorem tail_lab (W : Valuation τ sig (Elt F)) :
    StableHlo.after (List.flatten (tailOps (F := F))) W (Proc.devRef .tc main_arg1) = W (Proc.devRef .tc main_arg1) :=
  StableHlo.after_of_forall_not_mem _ W tail_keeps_lab

/-- The label vector and the result are unscoped buffers that are no array of the pipeline. -/
theorem lab_mem_rest : main_arg1 ∈ Pipeline.restRefs sig spec0 :=
  Pipeline.mem_restRefs_of main_arg1 rfl (fun w => by fin_cases w <;> decide)
theorem res_mem_rest : main_v55 ∈ Pipeline.restRefs sig spec0 :=
  Pipeline.mem_restRefs_of main_v55 rfl (fun w => by fin_cases w <;> decide)

/-- What the frame run's post says of the two arguments. -/
theorem args_of_post (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) := by
  refine ⟨((h c).1 0).trans (((dats m 0 c).arrAt_in 0 rfl _).trans ((A_eq m c 0).trans (V_main_arg0 m c))), ?_⟩
  refine ((h c).2 main_arg1 lab_mem_rest).trans ?_
  unfold Pipeline.afterTail₀
  rw [tail_lab, Pipeline.withArrays_of_ne spec0 c _ _ main_arg1 (fun w => by fin_cases w <;> decide)]
  rfl

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => args_of_post m r h c) (run_main m ρ)

end Cert.KernelIdeal.Frm

end
-- ==== Proof.KiAcc.lean ====
/-
  The accumulator and the kernel's output array as functions of the input array (definitions only).

  The scratch accumulator after grid position n: where the inner coordinate is 0 it is the body's sum applied to the
  position's input block and the zero the reset stored; elsewhere it is the body's sum applied to the block and the
  accumulator of the position before. The output array [16, 128]: rows 8b … 8b + 7 are TensorCore b's block, the
  masked block built from the accumulator after that core's last position 8b + 7.
-/
import proofs.«409343_j87729001988727_3_alg».proof.Proof.KiFrame
import Idealize.ShloMosaic.Lib.ValueIdx

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The accumulator after position n. -/
def acc (c : Dev nD) : (n : ℕ) → n < cfg0.N → Vec F S1x1 .f32
  | 0, h => k0_pay2 (iblk m c 0 ⟨0, h⟩) (k0_pay1 (F := F))
  | n + 1, h =>
    if (n + 1) % 8 = 0 then k0_pay2 (iblk m c 0 ⟨n + 1, h⟩) (k0_pay1 (F := F))
    else k0_pay2 (iblk m c 0 ⟨n + 1, h⟩) (acc c n (Nat.lt_of_succ_lt h))

/-- The kernel's output array: at row 8b + p and lane q, the masked block of core b's final accumulator at (p, q). -/
def Gout (c : Dev nD) : Vec F S16x128 .f32 := fun j =>
  k0_pay3 (acc m c (8 * ((j 0).val / 8) + 7) (by have hN : cfg0.N = 16 := N_0; have h := idx2_lt0 j; omega))
    (ix2 (⟨(j 0).val % 8, Nat.mod_lt _ (by decide)⟩ : Fin 8) (⟨(j 1).val, idx2_lt1 j⟩ : Fin 128))

end Cert.KernelIdeal.Frm

end
-- ==== Proof.KiValue.lean ====
/-
  The kernel's output array read off the run: it ends holding `Gout`.

  Each control case's stored pieces are read back as values: the accumulator is left at the body's sum of the
  point's block and the accumulator found (the stored zero where the inner coordinate is 0), and where the inner
  coordinate is 7 the output's staging buffer is left at the masked block of that accumulator. By induction on the
  position the point-by-point accumulator is `acc`. The two flushing points 7 and 15 write back blocks 0 and 1 of
  the [16, 128] array: row 8b + p, lane q of the array is entry (p, q) of core b's block, and the two blocks cover
  the sixteen rows.
-/
import proofs.«409343_j87729001988727_3_alg».proof.Proof.KiAcc
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The offsets (0, 0) are the zero offsets. -/
theorem off00_eq_zero : (![0, 0] : Fin 2 → Nat) = fun _ => 0 := funext fun a => by fin_cases a <;> rfl

/-- Case B (inner coordinate strictly between 0 and 7): the accumulator is left at the body's sum of the block
    and the accumulator it found. -/
theorem acc_B (c : Dev nD) (i : grid0.Coords) (a2 : Memref sig .tc .vmem S512x4096 .f32) (h2 : a2.IsWhole) (a3 : Memref sig .tc .vmem S8x128 .f32) (h3 : a3.IsWhole) (a4 : Memref sig .tc .vmem S1x1 .f32) (h4 : a4.IsWhole) (hc0 : ¬cond0_0 i) (hc1 : ¬cond0_1 i) (x : Vec F S512x4096 .f32) (xs : Vec F S1x1 .f32) :
    sout0_B_0 c i a2 h2 a3 h3 a4 h4 hc0 hc1 x xs = k0_pay2 x xs := by
  unfold sout0_B_0
  rw [View.read_writes_eq_canon _ _ _ (scover0_B_0 c i a2 h2 a3 h3 a4 h4 hc0 hc1 x xs)]
  unfold kernelRun0_B
  dsimp only
  rw [View.canon_unit_zero off00_eq_zero]
  simp only [View.readAt_eq_ld, h2.read_unread, h4.read_unread, View.ld_unit_zero (S := S512x4096) off00_eq_zero,
    View.ld_unit_zero (S := S1x1) off00_eq_zero]

/-- Case C (inner coordinate 7): the accumulator is left as in case B. -/
theorem acc_C (c : Dev nD) (i : grid0.Coords) (a2 : Memref sig .tc .vmem S512x4096 .f32) (h2 : a2.IsWhole) (a3 : Memref sig .tc .vmem S8x128 .f32) (h3 : a3.IsWhole) (a4 : Memref sig .tc .vmem S1x1 .f32) (h4 : a4.IsWhole) (hc0 : ¬cond0_0 i) (hc1 : cond0_1 i) (x : Vec F S512x4096 .f32) (xs : Vec F S1x1 .f32) :
    sout0_C_0 c i a2 h2 a3 h3 a4 h4 hc0 hc1 x xs = k0_pay2 x xs := by
  unfold sout0_C_0
  rw [View.read_writes_eq_canon _ _ _ (scover0_C_0 c i a2 h2 a3 h3 a4 h4 hc0 hc1 x xs)]
  unfold kernelRun0_C
  dsimp only
  sl_unfold_words
  rw [View.canon_unit_zero off00_eq_zero]
  simp only [View.readAt_eq_ld, h2.read_unread, h4.read_unread, View.ld_unit_zero (S := S512x4096) off00_eq_zero,
    View.ld_unit_zero (S := S1x1) off00_eq_zero]

/-- Case A (inner coordinate 0): the zero is stored, read back, and the accumulator is left at the body's sum of
    the block and that zero. -/
theorem acc_A (c : Dev nD) (i : grid0.Coords) (a2 : Memref sig .tc .vmem S512x4096 .f32) (h2 : a2.IsWhole) (a3 : Memref sig .tc .vmem S8x128 .f32) (h3 : a3.IsWhole) (a4 : Memref sig .tc .vmem S1x1 .f32) (h4 : a4.IsWhole) (hc0 : cond0_0 i) (hc1 : ¬cond0_1 i) (x : Vec F S512x4096 .f32) :
    sout0_A_0 c i a2 h2 a3 h3 a4 h4 hc0 hc1 x = k0_pay2 x (k0_pay1 (F := F)) := by
  unfold sout0_A_0
  rw [View.read_writes_eq_canon _ _ _ (scover0_A_0 c i a2 h2 a3 h3 a4 h4 hc0 hc1 x)]
  unfold kernelRun0_A
  dsimp only
  sl_unfold_words
  rw [View.canon_cons_unit_zero (S := S1x1) off00_eq_zero, View.readCov_unit_zero (S := S1x1) _ off00_eq_zero]
  simp only [View.readAt_eq_ld, h2.read_unread, View.ld_unit_zero (S := S512x4096) off00_eq_zero]

/-- Case C: the output's staging buffer is left at the masked block of the accumulator the same point left. -/
theorem out_C (c : Dev nD) (i : grid0.Coords) (a2 : Memref sig .tc .vmem S512x4096 .f32) (h2 : a2.IsWhole) (a3 : Memref sig .tc .vmem S8x128 .f32) (h3 : a3.IsWhole) (a4 : Memref sig .tc .vmem S1x1 .f32) (h4 : a4.IsWhole) (hc0 : ¬cond0_0 i) (hc1 : cond0_1 i) (x : Vec F S512x4096 .f32) (xs : Vec F S1x1 .f32) :
    out0_C_1 c i a2 h2 a3 h3 a4 h4 hc0 hc1 x xs = k0_pay3 (k0_pay2 x xs) := by
  unfold out0_C_1
  rw [View.read_writes_eq_canon _ _ _ (cover0_C_1 c i a2 h2 a3 h3 a4 h4 hc0 hc1 x xs)]
  unfold kernelRun0_C
  dsimp only
  sl_unfold_words
  rw [View.canon_unit_zero off00_eq_zero, View.readCov_unit_zero (S := S1x1) _ off00_eq_zero]
  simp only [View.readAt_eq_ld, h2.read_unread, h4.read_unread, View.ld_unit_zero (S := S512x4096) off00_eq_zero,
    View.ld_unit_zero (S := S1x1) off00_eq_zero]

/-- The accumulator at a later position whose inner coordinate is 0: the body's sum of the block and the zero. -/
theorem acc_succ_reset (c : Dev nD) (n : ℕ) (h : n + 1 < cfg0.N) (h0 : (n + 1) % 8 = 0) :
    acc m c (n + 1) h = k0_pay2 (iblk m c 0 ⟨n + 1, h⟩) (k0_pay1 (F := F)) := by
  rw [acc, if_pos h0]

/-- The accumulator at a later position whose inner coordinate is not 0: the body's sum of the block and the
    accumulator of the position before. -/
theorem acc_succ_add (c : Dev nD) (n : ℕ) (h : n + 1 < cfg0.N) (h0 : ¬(n + 1) % 8 = 0) :
    acc m c (n + 1) h = k0_pay2 (iblk m c 0 ⟨n + 1, h⟩) (acc m c n (Nat.lt_of_succ_lt h)) := by
  rw [acc, if_neg h0]

/-- The accumulator component of the point-by-point contents is the accumulator, by induction on the position. -/
theorem acc_eq (c : Dev nD) : ∀ (n : ℕ) (h : n < cfg0.N), (outsAt0 m c n h).2 = acc m c n h
  | 0, h => by
    rw [outsAt0_A m c ⟨0, h⟩ rfl (by dsimp only; decide)]
    dsimp only
    rw [acc_A]
    rfl
  | n + 1, h => by
    by_cases h0 : (n + 1) % 8 = 0
    · have h1 : ¬(n + 1) % 8 = 7 := by omega
      rw [outsAt0_A m c ⟨n + 1, h⟩ h0 h1]
      dsimp only
      rw [acc_A, acc_succ_reset m c n h h0]
    · by_cases h1 : (n + 1) % 8 = 7
      · rw [outsAt0_C m c ⟨n + 1, h⟩ h0 h1]
        dsimp only
        rw [acc_C, acc_succ_add m c n h h0]
        show k0_pay2 _ (outsAt0 m c n _).2 = _
        rw [acc_eq c n]
      · rw [outsAt0_B m c ⟨n + 1, h⟩ h0 h1]
        dsimp only
        rw [acc_B, acc_succ_add m c n h h0]
        show k0_pay2 _ (outsAt0 m c n _).2 = _
        rw [acc_eq c n]

/-- At a position with inner coordinate 7 the output's staging buffer holds the masked block of the accumulator. -/
theorem out_eq (c : Dev nD) (n : ℕ) (h : n < cfg0.N) (h7 : n % 8 = 7) :
    (outsAt0 m c n h).1 = k0_pay3 (acc m c n h) := by
  cases n with
  | zero => omega
  | succ n =>
    have h0 : ¬(n + 1) % 8 = 0 := by omega
    rw [outsAt0_C m c ⟨n + 1, h⟩ h0 h7]
    dsimp only
    rw [out_C, acc_succ_add m c n h h0]
    show k0_pay3 (k0_pay2 _ (outsAt0 m c n _).2) = _
    rw [acc_eq m c n]

/-- The output array at an index, from the index's coordinates: the row's core fixes the position, the row within
    the core's block and the lane fix the entry of the masked block. -/
theorem Gout_apply (c : Dev nD) (j : S16x128.Idx) (n : ℕ) (hn : n < cfg0.N) (p : S8x128.Idx)
    (h0 : 8 * ((j 0).val / 8) + 7 = n) (hp0 : (p 0).val = (j 0).val % 8) (hp1 : (p 1).val = (j 1).val) :
    Gout m c j = k0_pay3 (acc m c n hn) p := by
  subst h0
  unfold Gout
  congr 1
  funext a
  apply Fin.ext
  match a with
  | ⟨0, _⟩ => exact hp0.symm
  | ⟨1, _⟩ => exact hp1.symm

/-- What a flushing point writes back is its block of the output array. -/
theorem flushed_eq (c : Dev nD) (t : Fin cfg0.N) (hf : (cfg0.win 1).flush t = true) :
    (dats m 0 c).flushed 1 t = ((cfg0.win 1).blk t).view.read (Elt F) (Gout m c) := by
  have hN : cfg0.N = 16 := N_0
  have h7 : t.val % 8 = 7 := (flush0_1 t).mp hf
  have hi : win0_1.index t 0 = t.val / 8 ∧ win0_1.index t 1 = 0 :=
    (by decide +kernel : ∀ t : Fin grid0.N, win0_1.index t 0 = t.val / 8 ∧ win0_1.index t 1 = 0) t
  show (cfg0.win 1).cut (grid0.coords t) ((dats m 0 c).after 1 t) = _
  rw [after0_1, out_eq m c t.val t.isLt h7]
  funext y
  rw [View.read_apply]
  have hy0 : (y 0).val < 8 := (y 0).isLt
  have hy1 : (y 1).val < 128 := (y 1).isLt
  show k0_pay3 (acc m c t.val t.isLt) (win0_1.xinj (grid0.coords t) y) = Gout m c ((win0_1.blk t).view.emb y)
  symm
  apply Gout_apply m c _ t.val t.isLt
  · show 8 * ((win0_1.index t 0 * 8 + 1 * (y 0).val) / 8) + 7 = t.val
    rw [hi.1]; omega
  · show (y 0).val = (win0_1.index t 0 * 8 + 1 * (y 0).val) % 8
    rw [hi.1]; omega
  · show (y 1).val = win0_1.index t 1 * 128 + 1 * (y 1).val
    rw [hi.2]; omega

/-- After the run the pipeline's output array holds, on each core's eight rows, the masked block of that core's
    final accumulator. -/
theorem final_o (c : Dev nD) : (dats m 0 c).arrAt 1 cfg0.N = Gout m c :=
  (dats m 0 c).arrAt_eq_of_cover 1 (Gout m c) (flushed_eq m c) fun i => by
    have h0 : (i 0 : Nat) < 16 := (i 0).isLt
    have h1 : (i 1 : Nat) < 128 := (i 1).isLt
    by_cases hr : (i 0 : Nat) < 8
    · refine ⟨t0_7, (flush0_1 t0_7).mpr rfl, ?_⟩
      show i ∈ ((View.whole main_v0).slice (win0_1.rect t0_7)).set
      rw [View.set_slice_whole, Rect.mem_set_unit]
      intro a
      match a with
      | ⟨0, _⟩ =>
        show win0_1.index t0_7 0 * win0_1.size 0 ≤ (i 0 : Nat) ∧ (i 0 : Nat) < win0_1.index t0_7 0 * win0_1.size 0 + win0_1.xsize (grid0.coords t0_7) 0
        rw [show win0_1.index t0_7 0 * win0_1.size 0 = 0 from by decide +kernel, show win0_1.xsize (grid0.coords t0_7) 0 = 8 from by decide +kernel]; omega
      | ⟨1, _⟩ =>
        show win0_1.index t0_7 1 * win0_1.size 1 ≤ (i 1 : Nat) ∧ (i 1 : Nat) < win0_1.index t0_7 1 * win0_1.size 1 + win0_1.xsize (grid0.coords t0_7) 1
        rw [show win0_1.index t0_7 1 * win0_1.size 1 = 0 from by decide +kernel, show win0_1.xsize (grid0.coords t0_7) 1 = 128 from by decide +kernel]; omega
    · refine ⟨t0_15, (flush0_1 t0_15).mpr rfl, ?_⟩
      show i ∈ ((View.whole main_v0).slice (win0_1.rect t0_15)).set
      rw [View.set_slice_whole, Rect.mem_set_unit]
      intro a
      match a with
      | ⟨0, _⟩ =>
        show win0_1.index t0_15 0 * win0_1.size 0 ≤ (i 0 : Nat) ∧ (i 0 : Nat) < win0_1.index t0_15 0 * win0_1.size 0 + win0_1.xsize (grid0.coords t0_15) 0
        rw [show win0_1.index t0_15 0 * win0_1.size 0 = 8 from by decide +kernel, show win0_1.xsize (grid0.coords t0_15) 0 = 8 from by decide +kernel]; omega
      | ⟨1, _⟩ =>
        show win0_1.index t0_15 1 * win0_1.size 1 ≤ (i 1 : Nat) ∧ (i 1 : Nat) < win0_1.index t0_15 1 * win0_1.size 1 + win0_1.xsize (grid0.coords t0_15) 1
        rw [show win0_1.index t0_15 1 * win0_1.size 1 = 0 from by decide +kernel, show win0_1.xsize (grid0.coords t0_15) 1 = 128 from by decide +kernel]; omega

end Cert.KernelIdeal.Frm

end
-- ==== Proof.Spec.lean ====
/-
  The mathematics of the claim, stated once over the argument arrays and free of both programs.

  For a row with label value l, the position is p = l - 1, with floor word a and ceiling word b (32-bit signed,
  each the rounded position converted by truncation and clamping to the signed range). The soft target of the row
  is 1 at the columns a and b, 1/2 at column a - 1 when a ≥ 1 and at column b + 1 when b < 4095, and 0 elsewhere.
  The reference sums (x - target)² over the whole [8192, 4096] array. The kernel expands the square,
      Σ (x - t)² = Σ x² - 2 Σ x t + Σ t²,
  and evaluates the two sums that involve the target over a window of four columns per row that starts at
  clamp(a - 1, 0, 4092): the target vanishes outside that window, so nothing is lost.
-/
import Idealize.ShloMosaic.PureOps.Ideal
import Idealize.ShloMosaic.Lib.ValueIdx

noncomputable section

namespace Cert.Spec

open Idealize.ShloMosaic Idealize.ShloMosaic.ValueIdx
open scoped BigOperators

/-- The input array's shape and the label vector's shape. -/
abbrev SX : Shape := ⟨2, ![8192, 4096]⟩
abbrev SL : Shape := ⟨1, ![8192]⟩

/-- The position of row r: its label less one. -/
def pos (lab : SL.Idx → EReal) (r : Fin 8192) : EReal :=
  FloatOps.subf (F := Ideal) (φ := .f32) (lab (ix1 r)) (FloatOps.ofBits (F := Ideal) .f32 0x3F800000#32)

/-- The floor of the position as a signed 32-bit word. -/
def flW (lab : SL.Idx → EReal) (r : Fin 8192) : BitVec 32 :=
  FloatOps.fptosi (F := Ideal) (φ := .f32) 32 (FloatOps.hostUnary (F := Ideal) (φ := .f32) .floor (pos lab r))

/-- The ceiling of the position as a signed 32-bit word. -/
def clW (lab : SL.Idx → EReal) (r : Fin 8192) : BitVec 32 :=
  FloatOps.fptosi (F := Ideal) (φ := .f32) 32 (FloatOps.hostUnary (F := Ideal) (φ := .f32) .ceil (pos lab r))

/-- The soft target at the column word t of a row whose floor word is a and whose ceiling word is b. -/
def tgt (a b t : BitVec 32) : EReal :=
  Scalar.select (IntOp.ori (IntOp.cmpi .eq t a) (IntOp.cmpi .eq t b))
    (FloatOps.ofBits (F := Ideal) .f32 0x3F800000#32)
    (Scalar.select
      (IntOp.ori (IntOp.andi (IntOp.cmpi .eq t (IntOp.subi a 1#32)) (IntOp.cmpi .sge a 1#32))
                 (IntOp.andi (IntOp.cmpi .eq t (IntOp.addi b 1#32)) (IntOp.cmpi .slt b 4095#32)))
      (FloatOps.ofBits (F := Ideal) .f32 0x3F000000#32)
      (FloatOps.ofBits (F := Ideal) .f32 0x00000000#32))

/-- The first column of the four-column window of a row with floor word a: a - 1 clamped to [0, 4092]. -/
def startW (a : BitVec 32) : BitVec 32 := IntOp.minsi 4092#32 (IntOp.maxsi 0#32 (IntOp.subi a 1#32))

/-- The j-th column word of the window. -/
def colW (a : BitVec 32) (j : Fin 4) : BitVec 32 := IntOp.addi (startW a) (BitVec.ofNat 32 j.val)

/-- The j-th column of the window as a column index of the array (the word is always below 4096: `colW_lt`). -/
def colIx (a : BitVec 32) (j : Fin 4) : Fin 4096 := ⟨(colW a j).toNat % 4096, Nat.mod_lt _ (by decide)⟩

/-- The sum of the squares of the whole input array. -/
def sumsq (x : SX.Idx → EReal) : EReal :=
  ∑ r : Fin 8192, ∑ t : Fin 4096, FloatOps.mulf (F := Ideal) (φ := .f32) (x (ix2 r t)) (x (ix2 r t))

/-- The input times the target, summed over every row's window. -/
def sumxt (x : SX.Idx → EReal) (lab : SL.Idx → EReal) : EReal :=
  ∑ r : Fin 8192, ∑ j : Fin 4,
    FloatOps.mulf (F := Ideal) (φ := .f32) (x (ix2 r (colIx (flW lab r) j))) (tgt (flW lab r) (clW lab r) (colW (flW lab r) j))

/-- The target's square, summed over every row's window. -/
def sumtt (lab : SL.Idx → EReal) : EReal :=
  ∑ r : Fin 8192, ∑ j : Fin 4,
    FloatOps.mulf (F := Ideal) (φ := .f32) (tgt (flW lab r) (clW lab r) (colW (flW lab r) j)) (tgt (flW lab r) (clW lab r) (colW (flW lab r) j))

/-- The kernel program's last three operations applied to a value s standing for Σ x²: s - 2 · Σ x t + Σ t². -/
def KvalOf (s : EReal) (x : SX.Idx → EReal) (lab : SL.Idx → EReal) : EReal :=
  FloatOps.addf (F := Ideal) (φ := .f32)
    (FloatOps.subf (F := Ideal) (φ := .f32) s
      (FloatOps.mulf (F := Ideal) (φ := .f32) (FloatOps.ofBits (F := Ideal) .f32 0x40000000#32) (sumxt x lab)))
    (sumtt lab)

/-- What the kernel's program returns: Σ x² - 2 · Σ x t + Σ t², the last two over the windows. -/
def Kval (x : SX.Idx → EReal) (lab : SL.Idx → EReal) : EReal := KvalOf (sumsq x) x lab

/-- One term of the reference's sum: (x - target)² at row r and column t. -/
def rterm (x : SX.Idx → EReal) (lab : SL.Idx → EReal) (r : Fin 8192) (t : Fin 4096) : EReal :=
  FloatOps.mulf (F := Ideal) (φ := .f32)
    (FloatOps.subf (F := Ideal) (φ := .f32) (x (ix2 r t)) (tgt (flW lab r) (clW lab r) (BitVec.ofNat 32 t.val)))
    (FloatOps.subf (F := Ideal) (φ := .f32) (x (ix2 r t)) (tgt (flW lab r) (clW lab r) (BitVec.ofNat 32 t.val)))

/-- What the reference returns: the sum of (x - target)² over the whole array. -/
def Rval (x : SX.Idx → EReal) (lab : SL.Idx → EReal) : EReal :=
  ∑ r : Fin 8192, ∑ t : Fin 4096, rterm x lab r t

end Cert.Spec

end
-- ==== Proof.KiSum.lean ====
/-
  The sum of the kernel's output array, at the ideal instance, is the sum of the squares of the whole input array.

  The three payloads are read at an index: the reset's zero, the body's sum (the accumulator plus the sum of the
  squares of a block's entries) and the masked block (the accumulator at the block's first entry, zero elsewhere).
  The block at grid point t is rows 512 t … 512 t + 511 of the input array, so by induction along a core's eight
  positions the accumulator after position n holds the blocks of n's core up to n. The output array's total is then
  the accumulators after positions 7 and 15, that is the sixteen blocks, that is every row of the array.
-/
import proofs.«409343_j87729001988727_3_alg».proof.Proof.KiAcc
import proofs.«409343_j87729001988727_3_alg».proof.Proof.Spec
import Idealize.ShloMosaic.PureOps.Ideal.Laws
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx
open scoped BigOperators

namespace Sum

/-! ### The three payloads at an index -/

/-- The comparison of a small word with the zero word. -/
theorem cmpi_eq_zero_small (n : Nat) (hn : n < 128) :
    IntOp.cmpi .eq (BitVec.ofNat 32 n) 0#32 = if n = 0 then 1#1 else 0#1 := by
  unfold IntOp.cmpi
  by_cases h : n = 0
  · subst h; rfl
  · rw [if_neg h]
    have hne : (BitVec.ofNat 32 n == 0#32) = false := by
      rw [beq_eq_false_iff_ne]
      intro e
      have h2 := congrArg BitVec.toNat e
      rw [BitVec.toNat_ofNat] at h2
      have h3 : n % 2 ^ 32 = n := Nat.mod_eq_of_lt (by omega)
      rw [h3] at h2
      exact h (by simpa using h2)
    rw [hne]; rfl

/-- The masked block: the accumulator's one entry at the block's first entry, zero elsewhere. -/
theorem pay3_apply (v : Vec Ideal S1x1 .f32) (p : Fin 8) (q : Fin 128) :
    k0_pay3 (F := Ideal) v (ix2 p q) = if p.val = 0 ∧ q.val = 0 then v (ix2 0 0) else 0 := by
  unfold k0_pay3
  simp only [shapeCast_self]
  rw [select_apply, broadcast_apply]
  rw [broadcastTo_apply v broadcasts_S1x1_S8x128 (ix2 p q) (ix2 0 0) (by intro a; match a with | ⟨0, _⟩ => rfl | ⟨1, _⟩ => rfl)]
  show Scalar.select (IntOp.andi (IntOp.cmpi .eq (iota Kind.tc S8x128 32 [0] iota_S8x128_d0_w32 (ix2 p q)) 0#32)
      (IntOp.cmpi .eq (iota Kind.tc S8x128 32 [1] iota_S8x128_d1_w32 (ix2 p q)) 0#32)) _ _ = _
  rw [iota_single_apply, iota_single_apply]
  show Scalar.select (IntOp.andi (IntOp.cmpi .eq (BitVec.ofNat 32 p.val) 0#32) (IntOp.cmpi .eq (BitVec.ofNat 32 q.val) 0#32)) _
    (Ideal.ofBits .f32 0x00000000#32) = _
  rw [cmpi_eq_zero_small p.val (by have := p.isLt; omega), cmpi_eq_zero_small q.val q.isLt, Ideal.ofBits_zero_f32]
  by_cases hp : p.val = 0
  · by_cases hq : q.val = 0
    · rw [if_pos hp, if_pos hq, if_pos ⟨hp, hq⟩]; rfl
    · rw [if_pos hp, if_neg hq, if_neg (fun h => hq h.2)]; rfl
  · by_cases hq : q.val = 0
    · rw [if_neg hp, if_pos hq, if_neg (fun h => hp h.1)]; rfl
    · rw [if_neg hp, if_neg hq, if_neg (fun h => hp h.1)]; rfl

/-- The zero the reset stores. -/
theorem pay1_apply : k0_pay1 (F := Ideal) (ix2 0 0) = 0 := by
  unfold k0_pay1
  simp only [shapeCast_self]
  rw [broadcast_apply]
  exact Ideal.ofBits_zero_f32

/-- The body's sum: the accumulator plus the sum of the squares of the block's entries. -/
theorem pay2_apply (x : Vec Ideal S512x4096 .f32) (v : Vec Ideal S1x1 .f32) :
    k0_pay2 (F := Ideal) x v (ix2 0 0) = v (ix2 0 0) + ∑ r : Fin 512, ∑ q : Fin 4096, x (ix2 r q) * x (ix2 r q) := by
  unfold k0_pay2
  simp only [shapeCast_self]
  rw [addf_apply]
  congr 1
  rw [shapeCast_addUnit_apply ![1]]
  refine (Ideal.multiReduction_add_single (φ := .f32) (s := S512x1) (t := S1) (a := 0) _ 0x00000000#32 reduces_S512x1_S1 (.inl rfl) rfl _).trans ?_
  show ∑ r : Fin 512, _ = _
  apply Finset.sum_congr rfl
  intro r _
  rw [shapeCast_apply (s := S512) (t := S512x1) _ shapeCasts_S512_S512x1 _ (ix1 r) (by rw [Shape.rowMajor_val_one, Shape.rowMajor_val_two]; show r.val = r.val * 1 + 0; omega)]
  refine (Ideal.multiReduction_add_single (φ := .f32) (s := S512x4096) (t := S512) (a := 1) _ 0x00000000#32 reduces_S512x4096_S512 (.inl rfl) rfl _).trans ?_
  show ∑ q : Fin 4096, _ = _
  apply Finset.sum_congr rfl
  intro q _
  rw [mulf_apply]
  have hl : reduces_S512x4096_S512.lift (ix1 r) q = ix2 r q := by
    funext a; apply Fin.ext; match a with | ⟨0, _⟩ => rfl | ⟨1, _⟩ => rfl
  rw [hl]

/-! ### The input window's block at an index -/

/-- The block at grid point t is rows 512 t … 512 t + 511 of the input array. -/
theorem iblk_apply {F : FTy → Type} [FloatOps F] (m : (ℓ : Loc nD τ sig) → Buf (Elt F) ℓ) (c : Dev nD) (t : Fin cfg0.N)
    (r : Fin 512) (q : Fin 4096) (h : 512 * t.val + r.val < 8192) :
    (iblk m c 0 t : Vec F S512x4096 .f32) (ix2 r q)
      = (m ((c : Thread nD τ).loc main_arg0) : Vec F S8192x4096 .f32) (ix2 ⟨512 * t.val + r.val, h⟩ q) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [hi.1]; omega
  | ⟨1, _⟩ => show win0_0.index t 1 * 4096 + 1 * q.val = q.val; rw [hi.2]; omega

/-! ### Rows, blocks of rows, and the accumulator -/

/-- A row number as a row of the array (a number below 8192 is its own row). -/
def rowIx (n : ℕ) : Fin 8192 := ⟨n % 8192, Nat.mod_lt _ (by omega)⟩

theorem rowIx_val (r : Fin 8192) : rowIx r.val = r := Fin.ext (Nat.mod_eq_of_lt r.isLt)

/-- The sum of the squares of row n. -/
def sqrow (X : Cert.Spec.SX.Idx → EReal) (n : ℕ) : EReal :=
  ∑ q : Fin 4096, X (ix2 (rowIx n) q) * X (ix2 (rowIx n) q)

/-- The sum of the squares of the 512 rows of block t. -/
def tile (X : Cert.Spec.SX.Idx → EReal) (t : ℕ) : EReal := ∑ r ∈ Finset.range 512, sqrow X (512 * t + r)

/-- A sum over N K consecutive numbers, taken K at a time. -/
theorem sum_range_mul_block (f : ℕ → EReal) (K : ℕ) :
    ∀ N, ∑ n ∈ Finset.range (N * K), f n = ∑ t ∈ Finset.range N, ∑ r ∈ Finset.range K, f (K * t + r)
  | 0 => by simp
  | N + 1 => by
    rw [Nat.succ_mul, Finset.sum_range_add, sum_range_mul_block f K N, Finset.sum_range_succ, Nat.mul_comm K N]

/-- The sum of the squares of the whole array, taken 512 rows at a time. -/
theorem sumsq_eq (X : Cert.Spec.SX.Idx → EReal) : Cert.Spec.sumsq X = ∑ t ∈ Finset.range 16, tile X t := by
  unfold Cert.Spec.sumsq tile
  rw [← sum_range_mul_block (fun n => sqrow X n) 512 16]
  show _ = ∑ n ∈ Finset.range 8192, sqrow X n
  rw [← Fin.sum_univ_eq_sum_range (fun n => sqrow X n) 8192]
  apply Finset.sum_congr rfl
  intro r _
  unfold sqrow
  rw [rowIx_val]
  rfl

section
variable (m : (ℓ : Loc nD τ sig) → Buf (Elt Ideal) ℓ) (c : Dev nD)

/-- The body's sum applied to the block at grid point n adds that block's sum of squares. -/
theorem pay2_iblk (n : ℕ) (h : n < cfg0.N) (v : Vec Ideal S1x1 .f32) :
    k0_pay2 (F := Ideal) (iblk m c 0 ⟨n, h⟩) v (ix2 0 0)
      = v (ix2 0 0) + tile (m ((c : Thread nD τ).loc main_arg0)) n := by
  refine (pay2_apply (iblk m c 0 ⟨n, h⟩ : Vec Ideal S512x4096 .f32) v).trans ?_
  refine congrArg (fun z => v (ix2 0 0) + z) ?_
  unfold tile
  rw [← Fin.sum_univ_eq_sum_range (fun r => sqrow (m ((c : Thread nD τ).loc main_arg0)) (512 * n + r)) 512]
  apply Finset.sum_congr rfl
  intro r _
  unfold sqrow
  apply Finset.sum_congr rfl
  intro q _
  have hN : cfg0.N = 16 := N_0
  have hlt : 512 * n + r.val < 8192 := by have := r.isLt; omega
  rw [iblk_apply m c ⟨n, h⟩ r q hlt]
  have hr : (⟨512 * n + r.val, hlt⟩ : Fin 8192) = rowIx (512 * n + r.val) := Fin.ext (Nat.mod_eq_of_lt hlt).symm
  rw [hr]

/-- The accumulator after position n: the blocks of its core up to n. -/
theorem acc_eq (n : ℕ) (h : n < cfg0.N) :
    acc m c n h (ix2 0 0)
      = ∑ k ∈ Finset.range (n % 8 + 1), tile (m ((c : Thread nD τ).loc main_arg0)) (n - n % 8 + k) := by
  induction n with
  | zero =>
    rw [acc, pay2_iblk, pay1_apply, zero_add]
    simp
  | succ n ih =>
    rw [acc]
    by_cases h8 : (n + 1) % 8 = 0
    · rw [if_pos h8, pay2_iblk, pay1_apply, zero_add, h8]
      simp
    · rw [if_neg h8, pay2_iblk, ih (Nat.lt_of_succ_lt h)]
      have e1 : (n + 1) % 8 = n % 8 + 1 := by omega
      have e2 : n + 1 - (n + 1) % 8 = n - n % 8 := by omega
      rw [e2, e1, Finset.sum_range_succ _ (n % 8 + 1)]
      congr 2
      omega

/-- The accumulator's one entry after position n (zero past the grid). -/
def accAt (n : ℕ) : EReal := if h : n < cfg0.N then acc m c n h (ix2 0 0) else 0

/-- The output array at row a and lane q. -/
theorem Gout_apply (a : Fin 16) (q : Fin 128) :
    (Gout (F := Ideal) m c : S16x128.Idx → EReal) (ix2 a q)
      = if a.val % 8 = 0 ∧ q.val = 0 then accAt m c (8 * (a.val / 8) + 7) else 0 := by
  have hN : cfg0.N = 16 := N_0
  have hlt : 8 * (a.val / 8) + 7 < cfg0.N := by have := a.isLt; omega
  unfold Gout accAt
  rw [dif_pos hlt]
  exact pay3_apply _ _ _

/-- The output array's total: the two cores' final accumulators. -/
theorem sum_Gout : ∑ j : S16x128.Idx, (Gout (F := Ideal) m c : S16x128.Idx → EReal) j = accAt m c 7 + accAt m c 15 := by
  rw [sum_idx2]
  have inner : ∀ a : Fin 16, ∑ q : Fin 128, (Gout (F := Ideal) m c : S16x128.Idx → EReal) (ix2 a q)
      = if a.val % 8 = 0 then accAt m c (8 * (a.val / 8) + 7) else 0 := by
    intro a
    rw [Finset.sum_eq_single (⟨0, by omega⟩ : Fin 128)]
    · rw [Gout_apply]; by_cases h : a.val % 8 = 0 <;> simp [h]
    · intro q _ hq
      rw [Gout_apply, if_neg]
      intro hh; exact hq (Fin.ext hh.2)
    · intro h; exact absurd (Finset.mem_univ _) h
  simp only [inner]
  rw [Fin.sum_univ_eq_sum_range (fun a => if a % 8 = 0 then accAt m c (8 * (a / 8) + 7) else 0) 16]
  simp [Finset.sum_range_succ]

theorem accAt_7 : accAt m c 7 = ∑ k ∈ Finset.range 8, tile (m ((c : Thread nD τ).loc main_arg0)) k := by
  have hN : cfg0.N = 16 := N_0
  unfold accAt
  rw [dif_pos (by omega), acc_eq]
  simp

theorem accAt_15 : accAt m c 15 = ∑ k ∈ Finset.range 8, tile (m ((c : Thread nD τ).loc main_arg0)) (8 + k) := by
  have hN : cfg0.N = 16 := N_0
  unfold accAt
  rw [dif_pos (by omega), acc_eq]

end

end Sum

/-- The output array's total: each core's block contributes its accumulator once (at the block's first entry, the
    other entries zero), and the two accumulators are the sums of x² over the core's 4096 rows, taken 512 rows at a time. -/
theorem outsum (m : (ℓ : Loc nD τ sig) → Buf (Elt Ideal) ℓ) (c : Dev nD) :
    FloatOps.ofBits (F := Ideal) .f32 0x00000000#32 + ∑ j : S16x128.Idx, (Gout (F := Ideal) m c : S16x128.Idx → EReal) j
      = Cert.Spec.sumsq (m ((c : Thread nD τ).loc main_arg0)) := by
  rw [Ideal.ofBits_def, Ideal.ofBits_zero_f32, zero_add, Sum.sum_Gout, Sum.accAt_7, Sum.accAt_15,
    ← Finset.sum_range_add (Sum.tile (m ((c : Thread nD τ).loc main_arg0))) 8 8, Sum.sumsq_eq]

end Cert.KernelIdeal.Frm

end
-- ==== Proof.Window.lean ====
/-
  Facts about the target and the four-column window, as statements about 32-bit words.

  The target is rewritten once as a nested case distinction on equalities of words and signed comparisons. The
  window's first column is clamp(a - 1, 0, 4092) as a signed integer for every word a, so its four columns are
  the integers s, s + 1, s + 2, s + 3 with 0 ≤ s ≤ 4092: they are below 4096 and distinct. For a real label the
  floor and ceiling words are the signed integers A ≤ B ≤ A + 1, and each of the columns A, B, A - 1 (when A ≥ 1),
  B + 1 (when B < 4095) that lies in [0, 4095] lies in [s, s + 3].
-/
import proofs.«409343_j87729001988727_3_alg».proof.Proof.Spec

noncomputable section

namespace Cert.Spec

open Idealize.ShloMosaic Idealize.ShloMosaic.ValueIdx

/-- The pattern 0x3F800000 denotes the real number 1. -/
theorem lit_one : FloatOps.ofBits (F := Ideal) .f32 0x3F800000#32 = ((1 : ℝ) : EReal) := by
  simp [Ideal.ofBits, Ideal.ieee, -EReal.coe_mul]; norm_num

/-- The pattern 0x3F000000 denotes the real number 1/2. -/
theorem lit_half : FloatOps.ofBits (F := Ideal) .f32 0x3F000000#32 = ((1 / 2 : ℝ) : EReal) := by
  simp [Ideal.ofBits, Ideal.ieee, -EReal.coe_mul]; norm_num

/-- The pattern 0x00000000 denotes the real number 0. -/
theorem lit_zero : FloatOps.ofBits (F := Ideal) .f32 0x00000000#32 = ((0 : ℝ) : EReal) := by
  simp [Ideal.ofBits, Ideal.ieee]

/-- A one-bit word is 0 or 1. -/
theorem bit_cases (x : BitVec 1) : x = 0 ∨ x = 1 := by
  have h := x.isLt
  have : x.toNat = 0 ∨ x.toNat = 1 := by omega
  rcases this with h | h
  · left; exact BitVec.eq_of_toNat_eq h
  · right; exact BitVec.eq_of_toNat_eq h

/-- The disjunction of two one-bit words is 1 exactly when one of them is. -/
theorem bit_or_eq_one (x y : BitVec 1) : (x ||| y = 1) ↔ (x = 1 ∨ y = 1) := by
  rcases bit_cases x with rfl | rfl <;> rcases bit_cases y with rfl | rfl <;> decide

/-- The conjunction of two one-bit words is 1 exactly when both are. -/
theorem bit_and_eq_one (x y : BitVec 1) : (x &&& y = 1) ↔ (x = 1 ∧ y = 1) := by
  rcases bit_cases x with rfl | rfl <;> rcases bit_cases y with rfl | rfl <;> decide

/-- The one-bit word of a truth value is 1 exactly when the value is true. -/
theorem ofBool_eq_one (p : Bool) : (BitVec.ofBool p = 1) ↔ p = true := by
  cases p <;> decide

/-- The target as a case distinction: 1 at the words a and b, 1/2 at a - 1 when a ≥ 1 (signed) and at b + 1
    when b < 4095 (signed), 0 elsewhere. -/
theorem tgt_if (a b t : BitVec 32) : tgt a b t =
    if (t = a ∨ t = b) then ((1 : ℝ) : EReal)
    else if ((t = a - 1#32 ∧ 1 ≤ a.toInt) ∨ (t = b + 1#32 ∧ b.toInt < 4095)) then ((1 / 2 : ℝ) : EReal)
    else ((0 : ℝ) : EReal) := by
  unfold tgt Scalar.select IntOp.ori IntOp.andi IntOp.cmpi IntOp.subi IntOp.addi
  rw [lit_one, lit_half, lit_zero]
  have h1 : (1#32).toInt = 1 := by decide
  have h2 : (4095#32).toInt = 4095 := by decide
  simp only [bit_or_eq_one, bit_and_eq_one, ofBool_eq_one, beq_iff_eq, BitVec.sle, BitVec.slt, decide_eq_true_eq, h1, h2]

/-- The target's three values are real numbers. -/
theorem tgt_real (a b t : BitVec 32) : ∃ v : ℝ, tgt a b t = (v : EReal) := by
  rw [tgt_if]
  split_ifs
  · exact ⟨_, rfl⟩
  · exact ⟨_, rfl⟩
  · exact ⟨_, rfl⟩

/-- The window's first column as a signed integer: a - 1 (wrapping) clamped to [0, 4092]. -/
theorem startW_toInt (a : BitVec 32) : (startW a).toInt = min 4092 (max 0 (a - 1#32).toInt) := by
  unfold startW IntOp.minsi IntOp.maxsi IntOp.subi
  have h1 : (0#32).toInt = 0 := by decide
  have h2 : (4092#32).toInt = 4092 := by decide
  simp only [BitVec.slt, decide_eq_true_eq, h1, h2]
  split_ifs <;> (try simp only [h1, h2]) <;> omega

/-- The window's first column lies in [0, 4092] for every word a. -/
theorem startW_bounds (a : BitVec 32) : 0 ≤ (startW a).toInt ∧ (startW a).toInt ≤ 4092 := by
  rw [startW_toInt]; omega

/-- The j-th column word as a signed integer: the first column plus j, without wrapping. -/
theorem colW_toInt (a : BitVec 32) (j : Fin 4) : (colW a j).toInt = (startW a).toInt + j.val := by
  unfold colW IntOp.addi
  have hb := startW_bounds a
  have hj := j.isLt
  have hjv : (BitVec.ofNat 32 j.val).toInt = (j.val : Int) := by
    fin_cases j <;> decide
  rw [BitVec.toInt_add, hjv, Int.bmod_def]
  split_ifs <;> omega

/-- The j-th column word as a natural number: the same sum, since it is not negative. -/
theorem colW_toNat (a : BitVec 32) (j : Fin 4) : ((colW a j).toNat : Int) = (startW a).toInt + j.val := by
  have h := colW_toInt a j
  have hb := startW_bounds a
  have hj := j.isLt
  rw [BitVec.toInt_eq_toNat_cond] at h
  split_ifs at h <;> omega

/-- Every column word of the window is a column of the array. -/
theorem colW_toNat_lt (a : BitVec 32) (j : Fin 4) : (colW a j).toNat < 4096 := by
  have h := colW_toNat a j
  have hb := startW_bounds a
  have hj := j.isLt
  omega

/-- The window's column word is the word of its column index. -/
theorem colW_eq_ofNat (a : BitVec 32) (j : Fin 4) : colW a j = BitVec.ofNat 32 (colIx a j).val := by
  have h := colW_toNat_lt a j
  apply BitVec.eq_of_toNat_eq
  simp only [colIx, BitVec.toNat_ofNat]
  omega

/-- The window's four columns are distinct. -/
theorem colIx_injective (a : BitVec 32) : Function.Injective (colIx a) := by
  intro i j hij
  have hi := colW_toNat a i
  have hj := colW_toNat a j
  have hi' := colW_toNat_lt a i
  have hj' := colW_toNat_lt a j
  have h : (colW a i).toNat % 4096 = (colW a j).toNat % 4096 := congrArg Fin.val hij
  apply Fin.ext
  omega

/-- The conversion to a signed 32-bit word of an integer-valued real: the integer clamped to the signed range. -/
theorem fptosi_int (z : ℤ) : Ideal.fptosi 32 (((z : ℝ) : ℝ) : EReal) =
    BitVec.ofInt 32 (max (-2147483648) (min 2147483647 z)) := by
  unfold Ideal.fptosi
  rw [Ideal.toIntClamped_coe]
  simp only [Int.floor_intCast, Int.ceil_intCast, ite_self]
  norm_num

/-- The word of an integer in the signed range has that integer as its signed value. -/
theorem toInt_ofInt_range (z : ℤ) (h1 : -2147483648 ≤ z) (h2 : z ≤ 2147483647) :
    (BitVec.ofInt 32 z).toInt = z := by
  rw [BitVec.toInt_ofInt, Int.bmod_def]
  split_ifs <;> omega

/-- For a real label, the floor and ceiling words are signed integers A and B with A ≤ B ≤ A + 1: the clamped
    floor and ceiling of the position, where ⌊p⌋ ≤ ⌈p⌉ ≤ ⌊p⌋ + 1 and clamping keeps both relations. -/
theorem flW_clW (lab : SL.Idx → EReal) (hl : ∀ i, ∃ v : ℝ, lab i = (v : EReal)) (r : Fin 8192) :
    ∃ A B : ℤ, (flW lab r).toInt = A ∧ (clW lab r).toInt = B ∧
      -2147483648 ≤ A ∧ A ≤ B ∧ B ≤ A + 1 ∧ B ≤ 2147483647 := by
  obtain ⟨v, hv⟩ := hl (ix1 r)
  have hp : pos lab r = (((v - 1 : ℝ)) : EReal) := by
    unfold pos
    rw [hv, lit_one, Ideal.subf_def, EReal.coe_sub]
  have h1 := Int.floor_le_ceil (v - 1)
  have h2 := Int.ceil_le_floor_add_one (v - 1)
  refine ⟨max (-2147483648) (min 2147483647 ⌊v - 1⌋), max (-2147483648) (min 2147483647 ⌈v - 1⌉), ?_, ?_, ?_⟩
  · unfold flW
    rw [hp, Ideal.hostUnary_floor_def, Ideal.liftRound_coe]
    show (Ideal.fptosi 32 _).toInt = _
    rw [fptosi_int, toInt_ofInt_range] <;> omega
  · unfold clW
    rw [hp, Ideal.hostUnary_ceil_def, Ideal.liftRound_coe]
    show (Ideal.fptosi 32 _).toInt = _
    rw [fptosi_int, toInt_ofInt_range] <;> omega
  · omega

/-- For a row whose label is a real number, the target vanishes at every column outside the row's window:
    the floor and ceiling words a, b of a real position satisfy b = a or b = a + 1 without wrapping, so the columns
    a - 1, a, b, b + 1 that lie in [0, 4095] all lie in [clamp(a - 1, 0, 4092), clamp(a - 1, 0, 4092) + 3]. -/
theorem tgt_eq_zero_off_window (lab : SL.Idx → EReal) (hl : ∀ i, ∃ v : ℝ, lab i = (v : EReal))
    (r : Fin 8192) (t : Fin 4096) (ht : ∀ j : Fin 4, colIx (flW lab r) j ≠ t) :
    tgt (flW lab r) (clW lab r) (BitVec.ofNat 32 t.val) = 0 := by
  obtain ⟨A, B, hA, hB, hlo, hAB, hBA, hhi⟩ := flW_clW lab hl r
  generalize flW lab r = a at *
  generalize clW lab r = b at *
  have htl := t.isLt
  -- the column's word has the column as its signed value
  have hT : (BitVec.ofNat 32 t.val).toInt = (t.val : Int) := by
    rw [BitVec.toInt_ofNat', Int.bmod_def]
    split_ifs <;> omega
  have hs := startW_toInt a
  -- a - 1 wraps only at the least signed word
  have hM : (a - 1#32).toInt = if -2147483648 < A then A - 1 else 2147483647 := by
    have h1 : (1#32).toInt = 1 := by decide
    rw [BitVec.toInt_sub, hA, h1, Int.bmod_def]
    split_ifs <;> omega
  -- b + 1 wraps only at the greatest signed word
  have hP : (b + 1#32).toInt = if B < 2147483647 then B + 1 else -2147483648 := by
    have h1 : (1#32).toInt = 1 := by decide
    rw [BitVec.toInt_add, hB, h1, Int.bmod_def]
    split_ifs <;> omega
  -- the column is none of s, s + 1, s + 2, s + 3
  have hcol : ∀ j : Fin 4, (startW a).toInt + (j.val : Int) ≠ (t.val : Int) := by
    intro j hj
    apply ht j
    apply Fin.ext
    have h := colW_toNat a j
    have h' := colW_toNat_lt a j
    simp only [colIx]
    omega
  have h0 := hcol 0
  have h1 := hcol 1
  have h2 := hcol 2
  have h3 := hcol 3
  simp only [Fin.val_zero, Fin.val_one, Fin.val_two] at h0 h1 h2
  have h3' : ((3 : Fin 4).val : Int) = 3 := rfl
  rw [h3'] at h3
  rw [tgt_if]
  have e1 : BitVec.ofNat 32 t.val ≠ a := by
    intro h; have := congrArg BitVec.toInt h; rw [hT, hA] at this
    split_ifs at hM <;> omega
  have e2 : BitVec.ofNat 32 t.val ≠ b := by
    intro h; have := congrArg BitVec.toInt h; rw [hT, hB] at this
    split_ifs at hM <;> omega
  have e3 : ¬ (BitVec.ofNat 32 t.val = a - 1#32 ∧ 1 ≤ a.toInt) := by
    rintro ⟨h, h'⟩; have := congrArg BitVec.toInt h; rw [hT, hM] at this
    split_ifs at this <;> omega
  have e4 : ¬ (BitVec.ofNat 32 t.val = b + 1#32 ∧ b.toInt < 4095) := by
    rintro ⟨h, h'⟩; have := congrArg BitVec.toInt h; rw [hT, hP] at this
    split_ifs at this hM <;> omega
  have c1 : ¬ (BitVec.ofNat 32 t.val = a ∨ BitVec.ofNat 32 t.val = b) := by
    rintro (h | h)
    · exact e1 h
    · exact e2 h
  have c2 : ¬ ((BitVec.ofNat 32 t.val = a - 1#32 ∧ 1 ≤ a.toInt) ∨
      (BitVec.ofNat 32 t.val = b + 1#32 ∧ b.toInt < 4095)) := by
    rintro (h | h)
    · exact e3 h
    · exact e4 h
  rw [if_neg c1, if_neg c2]
  exact EReal.coe_zero

end Cert.Spec

end
-- ==== Proof.KiTail.lean ====
/-
  The host operations that follow the region, read as one function of the buffers they start from: the sum of the
  kernel's output array, the positions and their floor and ceiling words, the four-column windows read out of the
  input array, the soft target over the windows, the two sums over the windows and the closing arithmetic. Each
  value is named, read at an index, and matched with the specification's term; the composed result is then the
  specification's value.
-/
import proofs.«409343_j87729001988727_3_alg».proof.Proof.Gen.KernelIdeal.Launch
import proofs.«409343_j87729001988727_3_alg».proof.Proof.Spec
import proofs.«409343_j87729001988727_3_alg».proof.Proof.Window
import Idealize.ShloMosaic.Lib.StableHlo.Run
import Idealize.ShloMosaic.Lib.StableHlo.Predicate
import Idealize.ShloMosaic.Lib.Pipeline.Value
import Idealize.ShloMosaic.PureOps.Ideal.Laws

noncomputable section

namespace Cert.KernelIdeal.Tail

open Idealize.ShloMosaic Idealize.ShloMosaic.TcCoe Idealize.ShloMosaic.ValueIdx Cert.KernelIdeal Cert.KernelIdeal.Gen
open scoped BigOperators

variable {F : FTy → Type} [FloatOps F]

/-- The nine stretches of host operations after the region, in order. -/
abbrev tailOps : List (List (HloOp τ sig (Elt F))) :=
  [hostOps1, hostOps1_1, hostOps1_2, hostOps1_3, hostOps1_4, hostOps1_5, hostOps1_6, hostOps1_7, hostOps1_8]

/-- The kernel's output array, the input array and the labels as the buffer contents W hold them, at their literal types. -/
abbrev outArr (W : Valuation τ sig (Elt Ideal)) : S16x128.Idx → EReal := W (Proc.devRef .tc main_v0)
abbrev inArr (W : Valuation τ sig (Elt Ideal)) : S8192x4096.Idx → EReal := W (Proc.devRef .tc main_arg0)
abbrev labArr (W : Valuation τ sig (Elt Ideal)) : S8192.Idx → EReal := W (Proc.devRef .tc main_arg1)

/-! ## Reading the layout operations at an index -/

section Reads
variable {α : Type}

/-- A scalar broadcast to any shape reads the scalar everywhere. -/
theorem bc_scalar {t : Shape} (h : S_.BroadcastsInDim t ![]) (v : S_.Idx → α) (i : t.Idx) :
    broadcastInDim t ![] h v i = v ix0 :=
  broadcastInDim_apply _ h v i ix0 (fun a => a.elim0)

/-- A vector of 8192 rows as an [8192, 1] column reads the vector at the row. -/
theorem bc_col (v : S8192.Idx → α) (r : Fin 8192) (c : Fin 1) :
    broadcastInDim S8192x1 ![0] bcast_S8192_S8192x1_0 v (ix2 r c) = v (ix1 r) :=
  broadcastInDim_apply _ bcast_S8192_S8192x1_0 v (ix2 r c) (ix1 r) (fun a => match a with
    | ⟨0, _⟩ => by show r.val = if (8192 : Nat) = 1 then 0 else r.val; rw [if_neg (by decide)])

/-- An [8192, 1] column laid over four columns reads the column at the row. -/
theorem bc_rows (v : S8192x1.Idx → α) (r : Fin 8192) (j : Fin 4) :
    broadcastInDim S8192x4 ![0, 1] bcast_S8192x1_S8192x4_0_1 v (ix2 r j) = v (ix2 r 0) :=
  broadcastInDim_apply _ bcast_S8192x1_S8192x4_0_1 v (ix2 r j) (ix2 r 0) (fun a => match a with
    | ⟨0, _⟩ => by show r.val = if (8192 : Nat) = 1 then 0 else r.val; rw [if_neg (by decide)]
    | ⟨1, _⟩ => by show 0 = if (1 : Nat) = 1 then 0 else j.val; rw [if_pos rfl])

/-- A vector of four entries as a [1, 4] row reads the vector at the column. -/
theorem bc_row (v : S4.Idx → α) (c : Fin 1) (j : Fin 4) :
    broadcastInDim S1x4 ![1] bcast_S4_S1x4_1 v (ix2 c j) = v (ix1 j) :=
  broadcastInDim_apply _ bcast_S4_S1x4_1 v (ix2 c j) (ix1 j) (fun a => match a with
    | ⟨0, _⟩ => by show j.val = if (4 : Nat) = 1 then 0 else j.val; rw [if_neg (by decide)])

/-- A [1, 4] row laid over 8192 rows reads the row at the column. -/
theorem bc_cols (v : S1x4.Idx → α) (r : Fin 8192) (j : Fin 4) :
    broadcastInDim S8192x4 ![0, 1] bcast_S1x4_S8192x4_0_1 v (ix2 r j) = v (ix2 0 j) :=
  broadcastInDim_apply _ bcast_S1x4_S8192x4_0_1 v (ix2 r j) (ix2 0 j) (fun a => match a with
    | ⟨0, _⟩ => by show 0 = if (1 : Nat) = 1 then 0 else r.val; rw [if_pos rfl]
    | ⟨1, _⟩ => by show j.val = if (4 : Nat) = 1 then 0 else j.val; rw [if_neg (by decide)])

/-- A one-entry vector as a [1, 1, 1] array, then laid over [8192, 4, 1], reads the entry. -/
theorem bc_one (v : S1.Idx → α) (i : S8192x4x1.Idx) :
    broadcastInDim S8192x4x1 ![0, 1, 2] bcast_S1x1x1_S8192x4x1_0_1_2
      (broadcastInDim S1x1x1 ![2] bcast_S1_S1x1x1_2 v) i = v (ix1 0) := by
  rw [broadcastInDim_apply _ bcast_S1x1x1_S8192x4x1_0_1_2 _ i (ix3 0 0 0) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show 0 = if (1 : Nat) = 1 then 0 else _; rw [if_pos rfl])]
  exact broadcastInDim_apply _ bcast_S1_S1x1x1_2 v (ix3 0 0 0) (ix1 0) (fun a => match a with
    | ⟨0, _⟩ => by show 0 = if (1 : Nat) = 1 then 0 else _; rw [if_pos rfl])

/-- The [8192, 4] array recast as [8192, 4, 1] reads the array at the first two coordinates. -/
theorem cast3_apply (v : S8192x4.Idx → α) (r : Fin 8192) (j : Fin 4) (c : Fin 1) :
    shapeCast S8192x4x1 v shapeCasts_S8192x4_S8192x4x1 (ix3 r j c) = v (ix2 r j) :=
  shapeCast_apply v shapeCasts_S8192x4_S8192x4x1 (ix3 r j c) (ix2 r j) (by
    rw [Shape.rowMajor_val_two, Shape.rowMajor_val_three]
    show r.val * 4 + j.val = (r.val * 4 + j.val) * 1 + c.val
    have := c.isLt; omega)

end Reads

/-- The gather along the second axis, row by row: result (r, j) reads row r of the operand at the start index
    of (r, j, 0), read signed and clamped into [0, 4095]. -/
theorem gather_row_apply {α : Type} (x : S8192x4096.Idx → α) (idx : IVec S8192x4x1 32) (r : Fin 8192) (j : Fin 4) :
    Host.gather gather_S8192x4096_S8192x4x1_S8192x4_n_1_0_0_1_2_11 x idx (ix2 r j)
      = x (ix2 r ⟨min (idx (ix3 r j 0)).toInt.toNat 4095, by omega⟩) := by
  unfold Host.gather
  congr 1
  funext a
  refine Fin.ext ?_
  match a with
  | ⟨0, _⟩ =>
    show GatherDims.start _ (ix2 r j) idx 0 + GatherDims.batchCoord _ (ix2 r j) 0 + GatherDims.offCoord _ (ix2 r j) 0 = r.val
    rw [GatherDims.start_batching _ _ _ _ (by decide), GatherDims.offCoord_eq_zero _ _ _ (by decide)]
    unfold GatherDims.batchCoord
    rw [dif_pos (by decide), Nat.zero_add, Nat.add_zero]
    rfl
  | ⟨1, _⟩ =>
    show GatherDims.start _ (ix2 r j) idx 1 + GatherDims.batchCoord _ (ix2 r j) 1 + GatherDims.offCoord _ (ix2 r j) 1 = _
    rw [GatherDims.batchCoord_eq_zero _ _ _ (by decide), GatherDims.offCoord_eq_zero _ _ _ (by decide)]
    unfold GatherDims.start
    rw [dif_pos (by decide)]
    have hsi : GatherDims.siIdx gather_S8192x4096_S8192x4x1_S8192x4_n_1_0_0_1_2_11 (ix2 r j)
        ⟨List.idxOf (1 : Fin 2) gather_S8192x4096_S8192x4x1_S8192x4_n_1_0_0_1_2_11.startIndexMap,
          List.idxOf_lt_length_iff.2 (by decide)⟩ = ix3 r j 0 := by
      funext b; refine Fin.ext ?_
      match b with
      | ⟨0, _⟩ => rfl
      | ⟨1, _⟩ => rfl
      | ⟨2, _⟩ => rfl
    rw [hsi]
    rfl

/-- A reduction by "and" from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- The "and"-reduction over the unit axis of an array of ones, from the initial value 1, is 1. -/
theorem reduce_and_ones (m : IVec S8192x4x1 1) (hm : ∀ i, m i = 1#1) (i : S8192x4.Idx) :
    Host.reduce IntOp.andi m (constantI S_ 1 1#1) reducesTo_S8192x4x1_S8192x4_d2 h_S_ i = 1#1 := by
  rw [Host.reduce_eq_foldl]
  exact foldl_andi_one m _ (fun n _ => hm n)

/-! ## The operations after the region, named one value at a time -/

section Values
variable (x : S8192x4096.Idx → EReal) (lab : S8192.Idx → EReal)

/-- The positions: the labels less one. -/
def posV : S8192.Idx → EReal :=
  subf (F := Ideal) (φ := .f32) lab (broadcastInDim S8192 ![] bcast_S_S8192 (constant (F := Ideal) S_ .f32 0x3F800000#32))
/-- The floor words. -/
def flV : IVec S8192 32 := fptosi (F := Ideal) (φ := .f32) 32 (Host.floor (F := Ideal) (φ := .f32) (posV lab))
/-- The ceiling words. -/
def clV : IVec S8192 32 := fptosi (F := Ideal) (φ := .f32) 32 (Host.ceil (F := Ideal) (φ := .f32) (posV lab))
/-- The first column of each row's window. -/
def startV : IVec S8192 32 :=
  minsi (broadcastInDim S8192 ![] bcast_S_S8192 (constantI S_ 32 4092#32))
    (maxsi (broadcastInDim S8192 ![] bcast_S_S8192 (constantI S_ 32 0#32))
      (subi (flV lab) (broadcastInDim S8192 ![] bcast_S_S8192 (constantI S_ 32 1#32))))
/-- The column words of the windows. -/
def colV : IVec S8192x4 32 :=
  addi (broadcastInDim S8192x4 ![0, 1] bcast_S8192x1_S8192x4_0_1 (broadcastInDim S8192x1 ![0] bcast_S8192_S8192x1_0 (startV lab)))
    (broadcastInDim S8192x4 ![0, 1] bcast_S1x4_S8192x4_0_1 (broadcastInDim S1x4 ![1] bcast_S4_S1x4_1 (iotaInDim S4 32 0)))
/-- The column words with a negative one moved up by 4096. -/
def wrapV : IVec S8192x4 32 :=
  select (cmpi .slt (colV lab) (broadcastInDim S8192x4 ![] bcast_S_S8192x4 (constantI S_ 32 0#32)))
    (addi (colV lab) (broadcastInDim S8192x4 ![] bcast_S_S8192x4 (constantI S_ 32 4096#32))) (colV lab)
/-- The same words as an [8192, 4, 1] array of start indices. -/
def idxV : IVec S8192x4x1 32 := shapeCast S8192x4x1 (wrapV lab) shapeCasts_S8192x4_S8192x4x1
/-- The validity mask of the start indices. -/
def maskV : IVec S8192x4 1 :=
  Host.reduce IntOp.andi
    (andi (cmpi .sge (idxV lab) (broadcastInDim S8192x4x1 ![] bcast_S_S8192x4x1 (constantI S_ 32 0#32)))
      (cmpi .sle (idxV lab) (broadcastInDim S8192x4x1 ![0, 1, 2] bcast_S1x1x1_S8192x4x1_0_1_2
        (broadcastInDim S1x1x1 ![2] bcast_S1_S1x1x1_2 (constantI S1 32 4095#32)))))
    (constantI S_ 1 1#1) reducesTo_S8192x4x1_S8192x4_d2 h_S_
/-- The input array read at the windows. -/
def winV : S8192x4.Idx → EReal :=
  select (maskV lab) (Host.gather gather_S8192x4096_S8192x4x1_S8192x4_n_1_0_0_1_2_11 x (idxV lab))
    (broadcastInDim S8192x4 ![] bcast_S_S8192x4 (constant (F := Ideal) S_ .f32 0x7FC00000#32))
/-- Where the column is the floor or the ceiling. -/
def hitV : IVec S8192x4 1 :=
  ori (cmpi .eq (colV lab) (broadcastInDim S8192x4 ![0, 1] bcast_S8192x1_S8192x4_0_1 (broadcastInDim S8192x1 ![0] bcast_S8192_S8192x1_0 (flV lab))))
    (cmpi .eq (colV lab) (broadcastInDim S8192x4 ![0, 1] bcast_S8192x1_S8192x4_0_1 (broadcastInDim S8192x1 ![0] bcast_S8192_S8192x1_0 (clV lab))))
/-- Where the column is the one before the floor or the one after the ceiling, inside the array. -/
def sideV : IVec S8192x4 1 :=
  ori
    (andi
      (cmpi .eq (colV lab) (broadcastInDim S8192x4 ![0, 1] bcast_S8192x1_S8192x4_0_1
        (subi (broadcastInDim S8192x1 ![0] bcast_S8192_S8192x1_0 (flV lab)) (broadcastInDim S8192x1 ![] bcast_S_S8192x1 (constantI S_ 32 1#32)))))
      (broadcastInDim S8192x4 ![0, 1] bcast_S8192x1_S8192x4_0_1
        (cmpi .sge (broadcastInDim S8192x1 ![0] bcast_S8192_S8192x1_0 (flV lab)) (broadcastInDim S8192x1 ![] bcast_S_S8192x1 (constantI S_ 32 1#32)))))
    (andi
      (cmpi .eq (colV lab) (broadcastInDim S8192x4 ![0, 1] bcast_S8192x1_S8192x4_0_1
        (addi (broadcastInDim S8192x1 ![0] bcast_S8192_S8192x1_0 (clV lab)) (broadcastInDim S8192x1 ![] bcast_S_S8192x1 (constantI S_ 32 1#32)))))
      (broadcastInDim S8192x4 ![0, 1] bcast_S8192x1_S8192x4_0_1
        (cmpi .slt (broadcastInDim S8192x1 ![0] bcast_S8192_S8192x1_0 (clV lab)) (broadcastInDim S8192x1 ![] bcast_S_S8192x1 (constantI S_ 32 4095#32)))))
/-- The soft target over the windows. -/
def tgtV : S8192x4.Idx → EReal :=
  select (hitV lab) (broadcastInDim S8192x4 ![] bcast_S_S8192x4 (constant (F := Ideal) S_ .f32 0x3F800000#32))
    (select (sideV lab) (broadcastInDim S8192x4 ![] bcast_S_S8192x4 (constant (F := Ideal) S_ .f32 0x3F000000#32))
      (broadcastInDim S8192x4 ![] bcast_S_S8192x4 (constant (F := Ideal) S_ .f32 0x00000000#32)))

/-- The result as the operations compose it from the kernel's output array, the input array and the labels. -/
def resV (out : S16x128.Idx → EReal) : S_.Idx → EReal :=
  addf (F := Ideal) (φ := .f32)
    (subf (F := Ideal) (φ := .f32)
      (Host.reduceAdd (F := Ideal) (φ := .f32) out (constant (F := Ideal) S_ .f32 0x00000000#32) reducesTo_S16x128_S_d0_1 h_S_)
      (mulf (F := Ideal) (φ := .f32) (constant (F := Ideal) S_ .f32 0x40000000#32)
        (Host.reduceAdd (F := Ideal) (φ := .f32) (mulf (F := Ideal) (φ := .f32) (winV x lab) (tgtV lab))
          (constant (F := Ideal) S_ .f32 0x00000000#32) reducesTo_S8192x4_S_d0_1 h_S_)))
    (Host.reduceAdd (F := Ideal) (φ := .f32) (mulf (F := Ideal) (φ := .f32) (tgtV lab) (tgtV lab))
      (constant (F := Ideal) S_ .f32 0x00000000#32) reducesTo_S8192x4_S_d0_1 h_S_)

end Values

/-! ## Each value read at an index -/

section Elementwise
variable {s : Shape} {w : Nat}

theorem addi_at (a b : IVec s w) (i : s.Idx) : addi a b i = IntOp.addi (a i) (b i) := rfl
theorem subi_at (a b : IVec s w) (i : s.Idx) : subi a b i = IntOp.subi (a i) (b i) := rfl
theorem andi_at (a b : IVec s w) (i : s.Idx) : andi a b i = IntOp.andi (a i) (b i) := rfl
theorem ori_at (a b : IVec s w) (i : s.Idx) : ori a b i = IntOp.ori (a i) (b i) := rfl
theorem maxsi_at (a b : IVec s w) (i : s.Idx) : maxsi a b i = IntOp.maxsi (a i) (b i) := rfl
theorem minsi_at (a b : IVec s w) (i : s.Idx) : minsi a b i = IntOp.minsi (a i) (b i) := rfl
theorem cmpi_at (p : CmpIPredicate) (a b : IVec s w) (i : s.Idx) : cmpi p a b i = IntOp.cmpi p (a i) (b i) := rfl
theorem constantI_at (b : BitVec w) (i : s.Idx) : constantI s w b i = b := rfl
theorem constF_at (b : BitVec FTy.f32.bits) (i : s.Idx) :
    constant (F := Ideal) s .f32 b i = FloatOps.ofBits (F := Ideal) .f32 b := rfl
theorem select_at {α : Type} (c : IVec s 1) (a b : s.Idx → α) (i : s.Idx) :
    select c a b i = Scalar.select (c i) (a i) (b i) := rfl
theorem mulf_at (a b : s.Idx → EReal) (i : s.Idx) :
    mulf (F := Ideal) (φ := .f32) a b i = FloatOps.mulf (F := Ideal) (φ := .f32) (a i) (b i) := rfl

end Elementwise

/-! ### Words below 4096 -/

theorem slt_zero_of_small (c : BitVec 32) (hc : c.toNat < 4096) : IntOp.cmpi .slt c 0#32 = 0#1 := by
  apply eq_zero_of_ne_one
  intro h
  have := (StableHlo.Predicate.slt_iff_toNat (a := c) (b := 0#32) (by omega) (by decide)).mp h
  simp at this

theorem sge_zero_of_small (c : BitVec 32) (hc : c.toNat < 4096) : IntOp.cmpi .sge c 0#32 = 1#1 :=
  (StableHlo.Predicate.sge_iff_toNat (a := c) (b := 0#32) (by omega) (by decide)).mpr (by simp)

theorem sle_4095_of_small (c : BitVec 32) (hc : c.toNat < 4096) : IntOp.cmpi .sle c 4095#32 = 1#1 :=
  (StableHlo.Predicate.sle_iff_toNat (a := c) (b := 4095#32) (by omega) (by decide)).mpr (by
    show c.toNat ≤ (4095#32 : BitVec 32).toNat
    have : (4095#32 : BitVec 32).toNat = 4095 := by decide
    omega)

section Pointwise
variable (x : S8192x4096.Idx → EReal) (lab : S8192.Idx → EReal)

theorem posV_apply (r : Fin 8192) : posV lab (ix1 r) = Cert.Spec.pos lab r := by
  unfold posV Cert.Spec.pos
  show FloatOps.subf (F := Ideal) (φ := .f32) (lab (ix1 r))
    (broadcastInDim S8192 ![] bcast_S_S8192 (constant (F := Ideal) S_ .f32 0x3F800000#32) (ix1 r)) = _
  rw [bc_scalar]
  rfl

theorem flV_apply (r : Fin 8192) : flV lab (ix1 r) = Cert.Spec.flW lab r := by
  unfold flV Cert.Spec.flW
  show FloatOps.fptosi (F := Ideal) (φ := .f32) 32 (FloatOps.hostUnary (F := Ideal) (φ := .f32) .floor (posV lab (ix1 r))) = _
  rw [posV_apply]

theorem clV_apply (r : Fin 8192) : clV lab (ix1 r) = Cert.Spec.clW lab r := by
  unfold clV Cert.Spec.clW
  show FloatOps.fptosi (F := Ideal) (φ := .f32) 32 (FloatOps.hostUnary (F := Ideal) (φ := .f32) .ceil (posV lab (ix1 r))) = _
  rw [posV_apply]

theorem startV_apply (r : Fin 8192) : startV lab (ix1 r) = Cert.Spec.startW (Cert.Spec.flW lab r) := by
  unfold startV Cert.Spec.startW
  simp only [minsi_at, maxsi_at, subi_at]
  repeat rw [bc_scalar]
  simp only [constantI_at, flV_apply]

theorem colV_apply (r : Fin 8192) (j : Fin 4) :
    colV lab (ix2 r j) = Cert.Spec.colW (Cert.Spec.flW lab r) j := by
  unfold colV Cert.Spec.colW
  rw [addi_at, bc_rows, bc_col, bc_cols, bc_row, startV_apply]
  rfl

theorem wrapV_apply (r : Fin 8192) (j : Fin 4) :
    wrapV lab (ix2 r j) = Cert.Spec.colW (Cert.Spec.flW lab r) j := by
  unfold wrapV
  rw [select_at, cmpi_at, bc_scalar, constantI_at, colV_apply,
    slt_zero_of_small _ (Cert.Spec.colW_toNat_lt _ _), select_zero]

theorem idxV_apply (r : Fin 8192) (j : Fin 4) (c : Fin 1) :
    idxV lab (ix3 r j c) = Cert.Spec.colW (Cert.Spec.flW lab r) j := by
  unfold idxV
  rw [cast3_apply, wrapV_apply]

theorem maskV_apply (i : S8192x4.Idx) : maskV lab i = 1#1 := by
  unfold maskV
  apply reduce_and_ones
  intro k
  obtain ⟨r, j, c, rfl⟩ : ∃ (r : Fin 8192) (j : Fin 4) (c : Fin 1), k = ix3 r j c := ⟨k 0, k 1, k 2, eq_ix3 k⟩
  rw [andi_at, cmpi_at, cmpi_at, bc_scalar, bc_one, constantI_at, constantI_at, idxV_apply,
    sge_zero_of_small _ (Cert.Spec.colW_toNat_lt _ _), sle_4095_of_small _ (Cert.Spec.colW_toNat_lt _ _)]
  decide

theorem winV_apply (r : Fin 8192) (j : Fin 4) :
    winV x lab (ix2 r j) = x (ix2 r (Cert.Spec.colIx (Cert.Spec.flW lab r) j)) := by
  unfold winV
  rw [select_at, maskV_apply, select_one, gather_row_apply]
  have hlt := Cert.Spec.colW_toNat_lt (Cert.Spec.flW lab r) j
  have hidx := idxV_apply lab r j 0
  congr 2
  apply Fin.ext
  show min (idxV lab (ix3 r j 0)).toInt.toNat 4095 = (Cert.Spec.colW (Cert.Spec.flW lab r) j).toNat % 4096
  rw [hidx, StableHlo.Predicate.toInt_eq_toNat_of_lt (by omega), Int.toNat_natCast, Nat.mod_eq_of_lt hlt]
  omega

theorem tgtV_apply (r : Fin 8192) (j : Fin 4) :
    tgtV lab (ix2 r j)
      = Cert.Spec.tgt (Cert.Spec.flW lab r) (Cert.Spec.clW lab r) (Cert.Spec.colW (Cert.Spec.flW lab r) j) := by
  unfold tgtV hitV sideV Cert.Spec.tgt
  simp only [select_at, ori_at, andi_at, cmpi_at]
  repeat rw [bc_rows]
  simp only [subi_at, addi_at, cmpi_at]
  repeat rw [bc_col]
  repeat rw [bc_scalar]
  simp only [constantI_at, constF_at, colV_apply, flV_apply, clV_apply]

end Pointwise

/-! ## The sums, and the result -/

/-- At the ideal values the host's sum over every axis, from a literal initial value, is that value plus the sum of
    the entries. -/
theorem reduceAdd_total {s : Shape} {axes : List (Fin s.rank)} (h : s.ReducesTo axes S_) (y : s.Idx → EReal)
    (b : BitVec FTy.f32.bits) (i : S_.Idx) :
    Host.reduceAdd (F := Ideal) (φ := .f32) y (constant (F := Ideal) S_ .f32 b) h h_S_ i
      = FloatOps.ofBits (F := Ideal) .f32 b + ∑ j : s.Idx, y j := by
  simp only [Host.reduceAdd, Ideal.hostReduceAdd_def]
  exact Ideal.hostReduceAdd_total h (fun b => b.elim0) y _ i

/-- The zero literal is the extended real 0. -/
theorem ofBits_zero : FloatOps.ofBits (F := Ideal) .f32 0x00000000#32 = (0 : EReal) := Ideal.ofBits_zero_f32

section Result
variable (x : S8192x4096.Idx → EReal) (lab : S8192.Idx → EReal)

/-- The sum of the products of the window entries with the target is the specification's. -/
theorem sum_win_tgt (i : S_.Idx) :
    Host.reduceAdd (F := Ideal) (φ := .f32) (mulf (F := Ideal) (φ := .f32) (winV x lab) (tgtV lab))
        (constant (F := Ideal) S_ .f32 0x00000000#32) reducesTo_S8192x4_S_d0_1 h_S_ i
      = Cert.Spec.sumxt x lab := by
  rw [reduceAdd_total, sum_idx2, ofBits_zero, zero_add]
  unfold Cert.Spec.sumxt
  refine Finset.sum_congr rfl fun r _ => Finset.sum_congr rfl fun j _ => ?_
  rw [mulf_at, winV_apply, tgtV_apply]

/-- The sum of the target's squares is the specification's. -/
theorem sum_tgt_tgt (i : S_.Idx) :
    Host.reduceAdd (F := Ideal) (φ := .f32) (mulf (F := Ideal) (φ := .f32) (tgtV lab) (tgtV lab))
        (constant (F := Ideal) S_ .f32 0x00000000#32) reducesTo_S8192x4_S_d0_1 h_S_ i
      = Cert.Spec.sumtt lab := by
  rw [reduceAdd_total, sum_idx2, ofBits_zero, zero_add]
  unfold Cert.Spec.sumtt
  refine Finset.sum_congr rfl fun r _ => Finset.sum_congr rfl fun j _ => ?_
  rw [mulf_at, tgtV_apply]

/-- The composed result is the specification's value of the sum of the kernel's output array. -/
theorem resV_apply (out : S16x128.Idx → EReal) (i : S_.Idx) :
    resV x lab out i
      = Cert.Spec.KvalOf (FloatOps.ofBits (F := Ideal) .f32 0x00000000#32 + ∑ j : S16x128.Idx, out j) x lab := by
  unfold Cert.Spec.KvalOf
  rw [← sum_win_tgt x lab i, ← sum_tgt_tgt lab i,
    ← reduceAdd_total reducesTo_S16x128_S_d0_1 out 0x00000000#32 i]
  rfl

end Result

section Run
attribute [local irreducible] Host.reduce Host.gather Host.reduceAdd

set_option maxRecDepth 8192 in
set_option maxHeartbeats 2000000 in
/-- The operations after the region leave in the result buffer the composed value. -/
theorem tail_resV (W : Valuation τ sig (Elt Ideal)) :
    StableHlo.after (List.flatten (tailOps (F := Ideal))) W (Proc.devRef .tc main_v55)
      = resV (inArr W) (labArr W) (outArr W) := by
  show StableHlo.after (List.flatten [hostOps1, hostOps1_1, hostOps1_2, hostOps1_3, hostOps1_4, hostOps1_5, hostOps1_6,
    hostOps1_7, hostOps1_8]) W (Proc.devRef .tc main_v55) = _
  simp only [hostOps1, hostOps1_1, hostOps1_2, hostOps1_3, hostOps1_4, hostOps1_5, hostOps1_6, hostOps1_7, hostOps1_8,
    List.flatten_cons, List.flatten_nil, List.append_nil, List.cons_append, List.nil_append]
  open Idealize.ShloMosaic.StableHlo in after_results_simp
  rfl

end Run

/-- From any buffer contents W, the operations after the region leave in the result buffer the value
    s - 2 · Σ x t + Σ t², where s is the sum of the kernel's [16, 128] output array as W holds it and x, the labels
    are the argument arrays as W holds them. -/
theorem tail_value (W : Valuation τ sig (Elt Ideal)) :
    StableHlo.after (List.flatten (tailOps (F := Ideal))) W (Proc.devRef .tc main_v55)
      = fun _ => Cert.Spec.KvalOf
          (FloatOps.ofBits (F := Ideal) .f32 0x00000000#32 + ∑ j : S16x128.Idx, outArr W j) (inArr W) (labArr W) := by
  rw [tail_resV]
  funext i
  exact resV_apply (inArr W) (labArr W) (outArr W) i

end Cert.KernelIdeal.Tail

end
-- ==== Proof.KiResult.lean ====
/-
  The kernel's program, run at the ideal instance: its result is Σ x² − 2 · Σ x t + Σ t² of the argument arrays
  (the last two sums over every row's four-column window), and both arguments end unchanged. The result buffer
  bypasses the region, so the run's post gives it as the host operations after the region leave it, started from the
  region's exit contents: the output array as the pipeline wrote it back, the input array untouched, the labels
  untouched.
-/
import proofs.«409343_j87729001988727_3_alg».proof.Proof.KiArgs
import proofs.«409343_j87729001988727_3_alg».proof.Proof.KiValue
import proofs.«409343_j87729001988727_3_alg».proof.Proof.KiSum
import proofs.«409343_j87729001988727_3_alg».proof.Proof.KiTail

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- What the frame run's post says of the result buffer, at the ideal instance. -/
theorem result_of_post (m : (ℓ : Loc nD τ sig) → Buf (Elt Ideal) ℓ) (r : PUnit × MemSt nD τ sig (Elt Ideal))
    (h : Pipeline.FramePost cfgs (dats m) 0 (Pipeline.afterTail₀ cfgs (dats m) 0 (V0 m) tailOps) r) (c : Dev nD) :
    r.2.mem ((c.tc : Thread nD τ).loc main_v55)
      = fun _ => Cert.Spec.Kval (m ((c.tc : Thread nD τ).loc main_arg0)) (m ((c.tc : Thread nD τ).loc main_arg1)) := by
  refine ((h c).2 main_v55 res_mem_rest).trans ?_
  unfold Pipeline.afterTail₀
  refine (Cert.KernelIdeal.Tail.tail_value _).trans ?_
  have hO : Cert.KernelIdeal.Tail.outArr (Pipeline.withArrays spec0 c (V0 m c) fun w => (dats m 0 c).arrAt w cfg0.N) = Gout m c :=
    (Pipeline.withArrays_arr spec0 launch0.win.arr_inj c (V0 m c) _ 1).trans (final_o m c)
  have hX : Cert.KernelIdeal.Tail.inArr (Pipeline.withArrays spec0 c (V0 m c) fun w => (dats m 0 c).arrAt w cfg0.N)
      = m ((c.tc : Thread nD τ).loc main_arg0) :=
    (Pipeline.withArrays_arr spec0 launch0.win.arr_inj c (V0 m c) _ 0).trans
      (((dats m 0 c).arrAt_in 0 rfl _).trans ((A_eq m c 0).trans (V_main_arg0 m c)))
  have hL : Cert.KernelIdeal.Tail.labArr (Pipeline.withArrays spec0 c (V0 m c) fun w => (dats m 0 c).arrAt w cfg0.N)
      = m ((c.tc : Thread nD τ).loc main_arg1) :=
    (Pipeline.withArrays_of_ne spec0 c (V0 m c) _ main_arg1 (fun w => by fin_cases w <;> decide)).trans rfl
  rw [hO, hX, hL, outsum m c]
  rfl

/-- The run with its value. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v55)
        = (fun _ => Cert.Spec.Kval (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨result_of_post m r h c, args_of_post m r h c⟩) (run_main m ρ)

end Cert.KernelIdeal.Frm

end
-- ==== Proof.RefRead.lean ====
/-
  The reference's run read back, one operation at a time (the generated run and its read-at-an-index lemmas
  are imported here so that the modules about the reference share one import).
-/
import proofs.«409343_j87729001988727_3_alg».proof.Proof.Gen.ReferenceIdeal.Run
import proofs.«409343_j87729001988727_3_alg».proof.Proof.Gen.ReferenceIdeal.Read
-- ==== Proof.RefValue.lean ====
/-
  The reference's result is the specification's sum of squares.
-/
import proofs.«409343_j87729001988727_3_alg».proof.Proof.RefRead
import proofs.«409343_j87729001988727_3_alg».proof.Proof.Spec

noncomputable section

namespace Cert.ReferenceIdeal.RefValue

open Idealize.ShloMosaic Idealize.ShloMosaic.ValueIdx Cert.ReferenceIdeal
open scoped BigOperators

/-! The composed index maps of the broadcasts send the index (r, t) of the array to the row r of the label vector
    (the floor word's and the ceiling word's chains; the later broadcasts of the same words have the same maps). -/

theorem idx_v4_v11 (r : Fin 8192) (t : Fin 4096) :
    Read.idx_main_v4 (Read.idx_main_v11 (ix2 r t)) = ix1 r :=
  funext fun a => Fin.ext (by match a with | ⟨0, _⟩ => rfl)

theorem idx_v7_v14 (r : Fin 8192) (t : Fin 4096) :
    Read.idx_main_v7 (Read.idx_main_v14 (ix2 r t)) = ix1 r :=
  funext fun a => Fin.ext (by match a with | ⟨0, _⟩ => rfl)

/-- One element of the squared difference: at row r and column t it is the specification's term. -/
theorem v40_at (x0 : (⟨S8192x4096, .f32⟩ : BufTy).Contents (Elt Ideal)) (x1 : (⟨S8192, .f32⟩ : BufTy).Contents (Elt Ideal))
    (r : Fin 8192) (t : Fin 4096) :
    Cert.ReferenceIdeal.Read.val_main_v40 (F := Ideal) x0 x1 (ix2 r t) = Cert.Spec.rterm x0 x1 r t := by
  simp only [Read.val_main_v40_apply, Read.val_main_v39_apply, Read.val_main_v38_apply, Read.val_main_v37_apply,
    Read.val_main_v36_apply, Read.val_main_v35_apply, Read.val_main_v34_apply, Read.val_main_v33_apply,
    Read.val_main_v32_apply, Read.val_main_v31_apply, Read.val_main_v30_apply, Read.val_main_v29_apply,
    Read.val_main_v28_apply, Read.val_main_v27_apply, Read.val_main_v26_apply, Read.val_main_v25_apply,
    Read.val_main_v24_apply, Read.val_main_v23_apply, Read.val_main_v22_apply, Read.val_main_v21_apply,
    Read.val_main_v20_apply, Read.val_main_v19_apply, Read.val_main_v18_apply, Read.val_main_v17_apply,
    Read.val_main_v16_apply, Read.val_main_v15_apply, Read.val_main_v14_apply, Read.val_main_v13_apply,
    Read.val_main_v12_apply, Read.val_main_v11_apply, Read.val_main_v10_apply, Read.val_main_v9_apply,
    Read.val_main_v8_apply, Read.val_main_v7_apply, Read.val_main_v6_apply, Read.val_main_v5_apply,
    Read.val_main_v4_apply, Read.val_main_v3_apply, Read.val_main_v2_apply, Read.val_main_v1_apply,
    Read.val_main_v0_apply, Read.val_main_cst_apply, Read.val_main_c_apply, Read.val_main_c_0_apply,
    Read.val_main_c_1_apply, Read.val_main_c_2_apply, Read.val_main_cst_3_apply, Read.val_main_cst_4_apply,
    Read.val_main_cst_5_apply, Read.val_main_call0_v0_apply, Read.val_main_call0_v1_apply, Read.val_main_call1_v0_apply]
  rw [idx_v4_v11, idx_v7_v14]
  rfl

/-- The reference's last stage, at the ideal instance, is the sum over the whole array of (x - target)². -/
theorem ref_value (x0 : (⟨S8192x4096, .f32⟩ : BufTy).Contents (Elt Ideal)) (x1 : (⟨S8192, .f32⟩ : BufTy).Contents (Elt Ideal)) :
    Cert.ReferenceIdeal.Read.val_main_v41 (F := Ideal) x0 x1 = fun _ => Cert.Spec.Rval x0 x1 := by
  funext i
  rw [Read.val_main_v41_apply, Read.val_main_cst_6_apply, Ideal.ofBits_def, Ideal.ofBits_zero_f32, zero_add]
  unfold Cert.Spec.Rval
  rw [ValueIdx.sum_idx2]
  exact Finset.sum_congr rfl fun r _ => Finset.sum_congr rfl fun t _ => v40_at x0 x1 r t

end Cert.ReferenceIdeal.RefValue

end
-- ==== Proof.Algebra.lean ====
/-
  The identity between the two sides over the reals: the square of a difference expanded under the sum, with the
  two sums that involve the target restricted to the four columns of the window, where alone the target is not zero.
-/
import proofs.«409343_j87729001988727_3_alg».proof.Proof.Spec
import proofs.«409343_j87729001988727_3_alg».proof.Proof.Window

noncomputable section

namespace Cert.Spec

open Idealize.ShloMosaic Idealize.ShloMosaic.ValueIdx
open scoped BigOperators

/-- The coercion of the reals into the extended reals commutes with finite sums. -/
theorem coe_finset_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern 0x40000000 denotes the real number 2. -/
theorem ofBits_two : Ideal.ofBits .f32 0x40000000#32 = ((2 : ℝ) : EReal) := by
  simp [Ideal.ofBits, Ideal.ieee, -EReal.coe_mul]; norm_num

/-- A sum over all columns of terms that vanish off the image of an injective map of four columns is the sum
    over the four columns. -/
theorem sum_eq_sum_window (g : Fin 4096 → ℝ) (c : Fin 4 → Fin 4096) (hc : Function.Injective c)
    (h0 : ∀ t, (∀ j, c j ≠ t) → g t = 0) : ∑ t, g t = ∑ j, g (c j) := by
  classical
  rw [← Finset.sum_image (s := Finset.univ) (g := c) (f := g) (fun a _ b _ h => hc h)]
  symm
  apply Finset.sum_subset (Finset.subset_univ _)
  intro t _ ht
  apply h0
  intro j hj
  exact ht (Finset.mem_image.mpr ⟨j, Finset.mem_univ _, hj⟩)

/-- One row over the reals: the sum of squared differences is the sum of squares, less twice the sum of products
    over the window, plus the sum of the target's squares over the window. -/
theorem row_identity (f τ : Fin 4096 → ℝ) (c : Fin 4 → Fin 4096) (hc : Function.Injective c)
    (h0 : ∀ t, (∀ j, c j ≠ t) → τ t = 0) :
    ∑ t, (f t - τ t) * (f t - τ t)
      = ∑ t, f t * f t - 2 * ∑ j, f (c j) * τ (c j) + ∑ j, τ (c j) * τ (c j) := by
  have h1 : ∑ t, f t * τ t = ∑ j, f (c j) * τ (c j) :=
    sum_eq_sum_window (fun t => f t * τ t) c hc (fun t ht => by simp [h0 t ht])
  have h2 : ∑ t, τ t * τ t = ∑ j, τ (c j) * τ (c j) :=
    sum_eq_sum_window (fun t => τ t * τ t) c hc (fun t ht => by simp [h0 t ht])
  rw [← h1, ← h2, Finset.mul_sum, ← Finset.sum_sub_distrib, ← Finset.sum_add_distrib]
  apply Finset.sum_congr rfl
  intro t _
  ring

/-- With every input entry and every label a real number, the kernel's expanded form equals the reference's sum of squares. -/
theorem Kval_eq_Rval (x : SX.Idx → EReal) (lab : SL.Idx → EReal)
    (hx : ∀ i, ∃ v : ℝ, x i = (v : EReal)) (hl : ∀ i, ∃ v : ℝ, lab i = (v : EReal)) :
    Kval x lab = Rval x lab := by
  choose xr hxr using hx
  choose τr hτ using tgt_real
  have hx' : x = fun i => (xr i : EReal) := funext hxr
  subst hx'
  have hrow : ∀ r : Fin 8192,
      ∑ t : Fin 4096, (xr (ix2 r t) - τr (flW lab r) (clW lab r) (BitVec.ofNat 32 t.val))
          * (xr (ix2 r t) - τr (flW lab r) (clW lab r) (BitVec.ofNat 32 t.val))
        = ∑ t : Fin 4096, xr (ix2 r t) * xr (ix2 r t)
          - 2 * ∑ j : Fin 4, xr (ix2 r (colIx (flW lab r) j))
              * τr (flW lab r) (clW lab r) (BitVec.ofNat 32 (colIx (flW lab r) j).val)
          + ∑ j : Fin 4, τr (flW lab r) (clW lab r) (BitVec.ofNat 32 (colIx (flW lab r) j).val)
              * τr (flW lab r) (clW lab r) (BitVec.ofNat 32 (colIx (flW lab r) j).val) := by
    intro r
    apply row_identity (fun t => xr (ix2 r t))
      (fun t => τr (flW lab r) (clW lab r) (BitVec.ofNat 32 t.val)) (colIx (flW lab r))
      (colIx_injective (flW lab r))
    intro t ht
    have h := tgt_eq_zero_off_window lab hl r t ht
    rw [hτ] at h
    exact_mod_cast h
  unfold Kval KvalOf Rval rterm sumsq sumxt sumtt
  simp only [Ideal.mulf_def, Ideal.subf_def, Ideal.addf_def, Ideal.ofBits_def, ofBits_two, colW_eq_ofNat, hτ]
  simp only [← EReal.coe_mul, ← EReal.coe_sub, ← EReal.coe_add, ← coe_finset_sum_real]
  rw [EReal.coe_eq_coe_iff]
  simp only [hrow]
  rw [Finset.sum_add_distrib, Finset.sum_sub_distrib, ← Finset.mul_sum]

end Cert.Spec

end
-- ==== Proof.Finite.lean ====
/-
  The precondition read as a fact about entries: every entry of both arguments is a real number.
-/
import proofs.«409343_j87729001988727_3_alg».proof.Pre_finite_inputs
import proofs.«409343_j87729001988727_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic

/-- The pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max a (-a)` lies strictly below `+∞` is a real number:
    at `⊥` and at `⊤` that maximum is `⊤`. -/
theorem real_of_abs_lt_top (a : EReal)
    (h : Ideal.cmp .olt (max a (-a)) (⊤ : EReal) = 1#1) : ∃ v : ℝ, a = (v : EReal) := by
  induction a using EReal.rec with
  | bot => simp [Ideal.cmp] at h
  | top => simp [Ideal.cmp] at h
  | coe r => exact ⟨r, rfl⟩

/-- The scalar shape has one index. -/
instance subsingleton_scalarIdx : Subsingleton Cert.Pre_finite_inputs.S_.Idx := ⟨fun a b => funext fun d => d.elim0⟩

/-- If the printed finiteness predicate is all ones on the two argument arrays at the ideal instance, every entry of
    both is a real number. -/
theorem real_of_pre [hP : Cert.Pre_finite_inputs.Facts]
    (x : FVec Ideal Cert.Pre_finite_inputs.S8192x4096 .f32) (lab : FVec Ideal Cert.Pre_finite_inputs.S8192 .f32)
    (h : Cert.Pre_finite_inputs.fn (F := Ideal) x lab = fun _ => 1#1) :
    (∀ i, ∃ v : ℝ, x i = (v : EReal)) ∧ (∀ i, ∃ v : ℝ, lab i = (v : EReal)) := by
  have h0 := congrFun h ValueIdx.ix0
  dsimp only [Cert.Pre_finite_inputs.fn] at h0
  obtain ⟨hx, hl⟩ := IntOp.andi_eq_one.1 h0
  refine ⟨fun i => ?_, fun i => ?_⟩
  · have e : Ideal.cmp .olt (max (x i) (-(x i))) (Ideal.ofBits .f32 0x7F800000#32) = 1#1 :=
      Host.reduce_andi_all _ _ _ _ _ hx i
    rw [ofBits_inf] at e
    exact real_of_abs_lt_top _ e
  · have e : Ideal.cmp .olt (max (lab i) (-(lab i))) (Ideal.ofBits .f32 0x7F800000#32) = 1#1 :=
      Host.reduce_andi_all _ _ _ _ _ hl i
    rw [ofBits_inf] at e
    exact real_of_abs_lt_top _ e

end Cert.Finite

end
-- ==== Proof.lean ====
/-
  The certificate's claims, assembled.

  The kernel's program computes Σ x² inside one pallas_call (a [1,1] accumulator carried across a (2, 8) grid, each
  TensorCore storing its total into the first entry of its [8,128] block of a [16,128] array that the host then sums)
  and the two small sums Σ x·t and Σ t² on the host over a four-column window per row; the reference builds the whole
  soft target t and sums (x − t)². Over the extended reals both programs run to the end with the arguments unchanged,
  and under the precondition (every entry a real number) their results are equal: the target vanishes outside the
  window, and Σ (x − t)² = Σ x² − 2 Σ x t + Σ t² over the reals.
-/
import proofs.«409343_j87729001988727_3_alg».proof.Defs
import proofs.«409343_j87729001988727_3_alg».proof.Proof.Gen.Kernel
import proofs.«409343_j87729001988727_3_alg».proof.Proof.Gen.KernelIdeal
import proofs.«409343_j87729001988727_3_alg».proof.Proof.Gen.ReferenceIdeal
import proofs.«409343_j87729001988727_3_alg».proof.Proof.Gen.Pre_finite_inputs
import proofs.«409343_j87729001988727_3_alg».proof.Proof.KbArgs
import proofs.«409343_j87729001988727_3_alg».proof.Proof.KiResult
import proofs.«409343_j87729001988727_3_alg».proof.Proof.RefValue
import proofs.«409343_j87729001988727_3_alg».proof.Proof.Algebra
import proofs.«409343_j87729001988727_3_alg».proof.Proof.Finite
import Idealize.ShloMosaic.Adequacy
import Idealize.ShloMosaic.Init

noncomputable section

namespace Cert.Proof

open Idealize.ShloMosaic Idealize.ShloMosaic.TcCoe Idealize.SL.Sem

/-- The word-level program runs to the end and leaves both arguments as they were. -/
theorem frame_k : Cert.frame_Kernel := fun m ρ _ => Cert.Kernel.Frm.frame m ρ

/-- So does the program read over the extended reals. -/
theorem frame_ki : Cert.frame_KernelIdeal := fun m ρ _ => Cert.KernelIdeal.Frm.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the same extended real: the kernel's at Σ x² − 2 Σ x t + Σ t², the reference's at Σ (x − t)²,
    equal because every entry is a real number and the target vanishes outside each row's window. -/
theorem algebraic : Cert.algebraic_KernelIdeal_ReferenceIdeal := by
  intro m ρ m' ρ' hpre hagree
  refine ⟨fun c => fun _ => Cert.Spec.Kval (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Frm.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefValue.ref_value, (hagree c).1, (hagree c).2]
  obtain ⟨hx, hl⟩ := Cert.Finite.real_of_pre _ _ (hpre c)
  exact funext fun _ => (Cert.Spec.Kval_eq_Rval _ _ hx hl).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
